-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v32)) (v1 : (c : Dev Cert.KernelIdeal.nD) → Buf (Elt Ideal) ((c.tc : Thread Cert.KernelIdeal.nD Cert.KernelIdeal.τ).loc Cert.KernelIdeal.main_v2)) (v2 : (c : Dev Cert.KernelIdeal.nD) → Buf (Elt Ideal) ((c.tc : Thread Cert.KernelIdeal.nD Cert.KernelIdeal.τ).loc Cert.KernelIdeal.main_v4)) (v3 : (c : Dev Cert.KernelIdeal.nD) → Buf (Elt Ideal) ((c.tc : Thread Cert.KernelIdeal.nD Cert.KernelIdeal.τ).loc Cert.KernelIdeal.main_v27)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v32) = v0 c
          ∧ r.2.mem ((c.tc : Thread Cert.KernelIdeal.nD Cert.KernelIdeal.τ).loc Cert.KernelIdeal.main_v2) = v1 c
          ∧ r.2.mem ((c.tc : Thread Cert.KernelIdeal.nD Cert.KernelIdeal.τ).loc Cert.KernelIdeal.main_v4) = v2 c
          ∧ r.2.mem ((c.tc : Thread Cert.KernelIdeal.nD Cert.KernelIdeal.τ).loc Cert.KernelIdeal.main_v27) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v67) = v0 c
          ∧ r.2.mem ((c.tc : Thread Cert.ReferenceIdeal.nD Cert.ReferenceIdeal.τ).loc Cert.ReferenceIdeal.main_v3) = v1 c
          ∧ r.2.mem ((c.tc : Thread Cert.ReferenceIdeal.nD Cert.ReferenceIdeal.τ).loc Cert.ReferenceIdeal.main_v31) = v2 c
          ∧ r.2.mem ((c.tc : Thread Cert.ReferenceIdeal.nD Cert.ReferenceIdeal.τ).loc Cert.ReferenceIdeal.main_v62) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x256 : Shape := ⟨2, ![8192, 256]⟩
abbrev S8192x8192 : Shape := ⟨2, ![8192, 8192]⟩
abbrev S2x262144 : Shape := ⟨2, ![2, 262144]⟩
abbrev S_ : Shape := ⟨0, ![]⟩

class Facts : Prop where
  bcast_S_S8192x256 : S_.BroadcastsInDim S8192x256 (![] : Fin 0 → Fin S8192x256.rank)
  reducesTo_S8192x256_S_d0_1 : S8192x256.ReducesTo [0, 1] S_
  h_S_ : 0 < S_.numel
  bcast_S_S8192x8192 : S_.BroadcastsInDim S8192x8192 (![] : Fin 0 → Fin S8192x8192.rank)
  reducesTo_S8192x8192_S_d0_1 : S8192x8192.ReducesTo [0, 1] S_

variable [Facts]

def fn {F : FTy → Type} [FloatOps F] (main_arg0 : FVec F S8192x256 .f32) (main_arg1 : FVec F S8192x256 .f32) (main_arg2 : FVec F S8192x8192 .f32) (main_arg3 : IVec S2x262144 32) : IVec S_ 1 :=
  let main_v0 : FVec F S8192x256 .f32 := Host.absf main_arg0
  let main_cst : FVec F S_ .f32 := constant S_ .f32 0x7F800000#32
  let main_v1 : FVec F S8192x256 .f32 := broadcastInDim S8192x256 ![] bcast_S_S8192x256 main_cst
  let main_v2 : IVec S8192x256 1 := cmpf .olt main_v0 main_v1
  let main_c : IVec S_ 1 := constantI S_ 1 1#1
  let main_v3 : IVec S_ 1 := (fun x v => Host.reduce IntOp.andi x v reducesTo_S8192x256_S_d0_1 h_S_) main_v2 main_c
  let main_v4 : FVec F S8192x256 .f32 := Host.absf main_arg1
  let main_cst_0 : FVec F S_ .f32 := constant S_ .f32 0x7F800000#32
  let main_v5 : FVec F S8192x256 .f32 := broadcastInDim S8192x256 ![] bcast_S_S8192x256 main_cst_0
  let main_v6 : IVec S8192x256 1 := cmpf .olt main_v4 main_v5
  let main_c_1 : IVec S_ 1 := constantI S_ 1 1#1
  let main_v7 : IVec S_ 1 := (fun x v => Host.reduce IntOp.andi x v reducesTo_S8192x256_S_d0_1 h_S_) main_v6 main_c_1
  let main_v8 : IVec S_ 1 := andi main_v3 main_v7
  let main_v9 : FVec F S8192x8192 .f32 := Host.absf main_arg2
  let main_cst_2 : FVec F S_ .f32 := constant S_ .f32 0x7F800000#32
  let main_v10 : FVec F S8192x8192 .f32 := broadcastInDim S8192x8192 ![] bcast_S_S8192x8192 main_cst_2
  let main_v11 : IVec S8192x8192 1 := cmpf .olt main_v9 main_v10
  let main_c_3 : IVec S_ 1 := constantI S_ 1 1#1
  let main_v12 : IVec S_ 1 := (fun x v => Host.reduce IntOp.andi x v reducesTo_S8192x8192_S_d0_1 h_S_) main_v11 main_c_3
  let main_v13 : IVec S_ 1 := andi main_v8 main_v12
  main_v13
-- ==== Kernel.lean ====
abbrev S8192x256 : Shape := ⟨2, ![8192, 256]⟩
abbrev S8192x8192 : Shape := ⟨2, ![8192, 8192]⟩
abbrev S2x262144 : Shape := ⟨2, ![2, 262144]⟩
abbrev S1x1 : Shape := ⟨2, ![1, 1]⟩
abbrev S1024x256 : Shape := ⟨2, ![1024, 256]⟩
abbrev S1024 : Shape := ⟨1, ![1024]⟩
abbrev S1x1024 : Shape := ⟨2, ![1, 1024]⟩
abbrev S1 : Shape := ⟨1, ![1]⟩
abbrev S1024x1 : Shape := ⟨2, ![1024, 1]⟩
abbrev S_ : Shape := ⟨0, ![]⟩
abbrev S1x262144 : Shape := ⟨2, ![1, 262144]⟩
abbrev S262144 : Shape := ⟨1, ![262144]⟩
abbrev S262144x1 : Shape := ⟨2, ![262144, 1]⟩
abbrev S262144x2 : Shape := ⟨2, ![262144, 2]⟩
abbrev S512x1024 : Shape := ⟨2, ![512, 1024]⟩
abbrev S512 : Shape := ⟨1, ![512]⟩
abbrev S1x512 : Shape := ⟨2, ![1, 512]⟩

abbrev nBuf : Space → Nat
  | .hbm => 50
  | .vmem => 11
  | .smem => 0
  | _ => 0

abbrev bufTy : (tb : Table) → Fin (tcTables nBuf tb) → BufTy
  | .hbm, ⟨0, _⟩ => ⟨S8192x256, .f32⟩
  | .hbm, ⟨1, _⟩ => ⟨S8192x256, .f32⟩
  | .hbm, ⟨2, _⟩ => ⟨S8192x8192, .f32⟩
  | .hbm, ⟨3, _⟩ => ⟨S2x262144, .i32⟩
  | .hbm, ⟨4, _⟩ => ⟨S1x1, .f32⟩
  | .hbm, ⟨5, _⟩ => ⟨S1x1, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S1x262144, .i32⟩
  | .hbm, ⟨13, _⟩ => ⟨S262144, .i32⟩
  | .hbm, ⟨14, _⟩ => ⟨S1x262144, .i32⟩
  | .hbm, ⟨15, _⟩ => ⟨S262144, .i32⟩
  | .hbm, ⟨16, _⟩ => ⟨S_, .f32⟩
  | .hbm, ⟨17, _⟩ => ⟨S8192x8192, .f32⟩
  | .hbm, ⟨18, _⟩ => ⟨S_, .i32⟩
  | .hbm, ⟨19, _⟩ => ⟨S262144, .i32⟩
  | .hbm, ⟨20, _⟩ => ⟨S262144, .i1⟩
  | .hbm, ⟨21, _⟩ => ⟨S_, .i32⟩
  | .hbm, ⟨22, _⟩ => ⟨S262144, .i32⟩
  | .hbm, ⟨23, _⟩ => ⟨S262144, .i32⟩
  | .hbm, ⟨24, _⟩ => ⟨S262144, .i32⟩
  | .hbm, ⟨25, _⟩ => ⟨S_, .i32⟩
  | .hbm, ⟨26, _⟩ => ⟨S262144, .i32⟩
  | .hbm, ⟨27, _⟩ => ⟨S262144, .i1⟩
  | .hbm, ⟨28, _⟩ => ⟨S_, .i32⟩
  | .hbm, ⟨29, _⟩ => ⟨S262144, .i32⟩
  | .hbm, ⟨30, _⟩ => ⟨S262144, .i32⟩
  | .hbm, ⟨31, _⟩ => ⟨S262144, .i32⟩
  | .hbm, ⟨32, _⟩ => ⟨S262144x1, .i32⟩
  | .hbm, ⟨33, _⟩ => ⟨S262144x1, .i32⟩
  | .hbm, ⟨34, _⟩ => ⟨S262144x2, .i32⟩
  | .hbm, ⟨35, _⟩ => ⟨S_, .f32⟩
  | .hbm, ⟨36, _⟩ => ⟨S262144, .f32⟩
  | .hbm, ⟨37, _⟩ => ⟨S8192x8192, .f32⟩
  | .hbm, ⟨38, _⟩ => ⟨S1x1, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S_, .f32⟩
  | .local _ .vmem, ⟨0, _⟩ => ⟨S1024x256, .f32⟩
  | .local _ .vmem, ⟨1, _⟩ => ⟨S1024x256, .f32⟩
  | .local _ .vmem, ⟨2, _⟩ => ⟨S1024x256, .f32⟩
  | .local _ .vmem, ⟨3, _⟩ => ⟨S1024x256, .f32⟩
  | .local _ .vmem, ⟨4, _⟩ => ⟨S1x1, .f32⟩
  | .local _ .vmem, ⟨5, _⟩ => ⟨S1x1, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S1x1, .f32⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_c : Ref sig .tc := ⟨.hbm, 18, rfl⟩
abbrev main_v10 : Ref sig .tc := ⟨.hbm, 19, rfl⟩
abbrev main_v11 : Ref sig .tc := ⟨.hbm, 20, rfl⟩
abbrev main_c_2 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_c_3 : Ref sig .tc := ⟨.hbm, 25, rfl⟩
abbrev main_v15 : Ref sig .tc := ⟨.hbm, 26, rfl⟩
abbrev main_v16 : Ref sig .tc := ⟨.hbm, 27, rfl⟩
abbrev main_c_4 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_5 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_6 : Ref sig .tc := ⟨.hbm, 40, rfl⟩
abbrev main_v27 : Ref sig .tc := ⟨.hbm, 41, rfl⟩
abbrev main_cst_7 : Ref sig .tc := ⟨.hbm, 42, rfl⟩
abbrev main_v28 : Ref sig .tc := ⟨.hbm, 43, rfl⟩
abbrev main_cst_8 : Ref sig .tc := ⟨.hbm, 44, rfl⟩
abbrev main_v29 : Ref sig .tc := ⟨.hbm, 45, rfl⟩
abbrev main_v30 : Ref sig .tc := ⟨.hbm, 46, rfl⟩
abbrev main_cst_9 : Ref sig .tc := ⟨.hbm, 47, rfl⟩
abbrev main_v31 : Ref sig .tc := ⟨.hbm, 48, rfl⟩
abbrev main_v32 : Ref sig .tc := ⟨.hbm, 49, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev grid1 : Pipeline.Grid := ⟨2, ![16, 8], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S512x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S512x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 1 → Memref sig .tc .vmem S1x1 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

class Facts₀ : Prop where
  inb_S1x1_S1x1_0_0 : ∀ a, (![0, 0] : Fin 2 → Nat) a + S1x1.size a ≤ S1x1.size a
  h_S1x1 : 0 < S1x1.numel
  inb_S1024x256_S1024x256_0_0 : ∀ a, (![0, 0] : Fin 2 → Nat) a + S1024x256.size a ≤ S1024x256.size a
  h_S1024x256 : 0 < S1024x256.numel
  reduces_S1024x256_S1024 : S1024x256.Reduces [1] S1024
  shapeCasts_S1024_S1x1024 : S1024.ShapeCasts S1x1024
  reduces_S1x1024_S1 : S1x1024.Reduces [1] S1
  shapeCasts_S1_S1x1 : S1.ShapeCasts S1x1
  inpos_S1x1_p0_0 : ∀ a, (![0, 0] : Fin 2 → Nat) a < S1x1.size a
  shapeCasts_S1024_S1024x1 : S1024.ShapeCasts S1024x1
  broadcasts_S1024x1_S1024x256 : S1024x1.Broadcasts S1024x256
  shapeCasts_S1x1_S1x1 : S1x1.ShapeCasts S1x1
  shapeCasts_S1x1_S_ : S1x1.ShapeCasts S_
  slices_S2x262144_S1x262144_0_0 : S2x262144.Slices ![0, 0] S1x262144
  shapeCasts_S1x262144_S262144 : S1x262144.ShapeCasts S262144
  slices_S2x262144_S1x262144_1_0 : S2x262144.Slices ![1, 0] S1x262144
  bcast_S_S8192x8192 : S_.BroadcastsInDim S8192x8192 (![] : Fin 0 → Fin S8192x8192.rank)
  bcast_S_S262144 : S_.BroadcastsInDim S262144 (![] : Fin 0 → Fin S262144.rank)
  bcast_S262144_S262144x1_0 : S262144.BroadcastsInDim S262144x1 (![0] : Fin 1 → Fin S262144x1.rank)
  concatenates_S262144x1_S262144x1_S262144x2_d1 : Shape.Concatenates [S262144x1, S262144x1] S262144x2 1
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  reduces_S512x1024_S512 : S512x1024.Reduces [1] S512
  shapeCasts_S512_S1x512 : S512.ShapeCasts S1x512
  reduces_S1x512_S1 : S1x512.Reduces [1] S1
  scatter_S8192x8192_S262144x2_S262144_n_01_01_1_wf : ScatterDims.WF S8192x8192 S262144x2 S262144 [] [0, 1] [0, 1] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x256.size a ≤ S8192x256.size a
  hwx0_0 : ∀ i : grid0.Coords, EltTy.bits .f32 = 32 ∨ (Rect.block (s := S8192x256) S1024x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x256.size a ≤ S8192x256.size a
  hwx0_1 : ∀ i : grid0.Coords, EltTy.bits .f32 = 32 ∨ (Rect.block (s := S8192x256) S1024x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1.size a ≤ S1x1.size a
  hwx0_2 : ∀ i : grid0.Coords, EltTy.bits .f32 = 32 ∨ (Rect.block (s := S1x1) S1x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1.size a ≤ S1x1.size a
  hwx0_3 : ∀ i : grid0.Coords, EltTy.bits .f32 = 32 ∨ (Rect.block (s := S1x1) S1x1.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x1024.size a ≤ S8192x8192.size a
  hwx1_0 : ∀ i : grid1.Coords, EltTy.bits .f32 = 32 ∨ (Rect.block (s := S8192x8192) S512x1024.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S512x1024.size a ≤ S8192x8192.size a
  hwx1_1 : ∀ i : grid1.Coords, EltTy.bits .f32 = 32 ∨ (Rect.block (s := S8192x8192) S512x1024.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x1.size a ≤ S1x1.size a
  hwx1_2 : ∀ i : grid1.Coords, EltTy.bits .f32 = 32 ∨ (Rect.block (s := S1x1) S1x1.size (cc1_transform_2 i) (hinb1_2 i)).WholeWords (EltTy.packing .f32)

variable [Facts₀]

def scatter_S8192x8192_S262144x2_S262144_n_01_01_1 : ScatterDims S8192x8192 S262144x2 S262144 where
  updateWindowDims := []
  insertedWindowDims := [0, 1]
  scatterDimsToOperandDims := [0, 1]
  indexVectorDim := 1
  wf := scatter_S8192x8192_S262144x2_S262144_n_01_01_1_wf

abbrev win0_0 : Pipeline.Window sig grid0 :=
  Pipeline.Window.ofSpec (Memref.whole main_arg0) S1024x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_0) S1x1.size cc0_transform_2 reads0_2 true true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0_1) S1x1.size cc0_transform_3 reads0_3 true true 1 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg2) S512x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v24) S512x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v25) S1x1.size cc1_transform_2 reads1_2 true true 1 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S8192x256 : Shape := ⟨2, ![8192, 256]⟩
abbrev S8192x8192 : Shape := ⟨2, ![8192, 8192]⟩
abbrev S2x262144 : Shape := ⟨2, ![2, 262144]⟩
abbrev S_ : Shape := ⟨0, ![]⟩
abbrev S8192 : Shape := ⟨1, ![8192]⟩
abbrev S8192x1 : Shape := ⟨2, ![8192, 1]⟩
abbrev S1x262144 : Shape := ⟨2, ![1, 262144]⟩
abbrev S262144 : Shape := ⟨1, ![262144]⟩
abbrev S262144x1 : Shape := ⟨2, ![262144, 1]⟩
abbrev S262144x2 : Shape := ⟨2, ![262144, 2]⟩

abbrev nBuf : Space → Nat
  | .hbm => 97
  | .vmem => 0
  | .smem => 0
  | _ => 0

abbrev bufTy : (tb : Table) → Fin (tcTables nBuf tb) → BufTy
  | .hbm, ⟨0, _⟩ => ⟨S8192x256, .f32⟩
  | .hbm, ⟨1, _⟩ => ⟨S8192x256, .f32⟩
  | .hbm, ⟨2, _⟩ => ⟨S8192x8192, .f32⟩
  | .hbm, ⟨3, _⟩ => ⟨S2x262144, .i32⟩
  | .hbm, ⟨4, _⟩ => ⟨S8192x256, .f32⟩
  | .hbm, ⟨5, _⟩ => ⟨S8192x256, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S8192, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x256, .f32⟩
  | .hbm, ⟨17, _⟩ => ⟨S8192x256, .f32⟩
  | .hbm, ⟨18, _⟩ => ⟨S_, .f32⟩
  | .hbm, ⟨19, _⟩ => ⟨S8192, .f32⟩
  | .hbm, ⟨20, _⟩ => ⟨S8192x1, .f32⟩
  | .hbm, ⟨21, _⟩ => ⟨S_, .f32⟩
  | .hbm, ⟨22, _⟩ => ⟨S8192x1, .f32⟩
  | .hbm, ⟨23, _⟩ => ⟨S8192x1, .f32⟩
  | .hbm, ⟨24, _⟩ => ⟨S8192x256, .f32⟩
  | .hbm, ⟨25, _⟩ => ⟨S8192x256, .f32⟩
  | .hbm, ⟨26, _⟩ => ⟨S8192x256, .f32⟩
  | .hbm, ⟨27, _⟩ => ⟨S_, .f32⟩
  | .hbm, ⟨28, _⟩ => ⟨S8192, .f32⟩
  | .hbm, ⟨29, _⟩ => ⟨S8192x256, .f32⟩
  | .hbm, ⟨30, _⟩ => ⟨S_, .f32⟩
  | .hbm, ⟨31, _⟩ => ⟨S8192, .f32⟩
  | .hbm, ⟨32, _⟩ => ⟨S8192, .f32⟩
  | .hbm, ⟨33, _⟩ => ⟨S8192x256, .f32⟩
  | .hbm, ⟨34, _⟩ => ⟨S_, .f32⟩
  | .hbm, ⟨35, _⟩ => ⟨S8192, .f32⟩
  | .hbm, ⟨36, _⟩ => ⟨S8192, .f32⟩
  | .hbm, ⟨37, _⟩ => ⟨S8192, .f32⟩
  | .hbm, ⟨38, _⟩ => ⟨S_, .f32⟩
  | .hbm, ⟨39, _⟩ => ⟨S8192, .f32⟩
  | .hbm, ⟨40, _⟩ => ⟨S8192, .f32⟩
  | .hbm, ⟨41, _⟩ => ⟨S8192, .f32⟩
  | .hbm, ⟨42, _⟩ => ⟨S_, .f32⟩
  | .hbm, ⟨43, _⟩ => ⟨S8192, .f32⟩
  | .hbm, ⟨44, _⟩ => ⟨S8192, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S8192x8192, .f32⟩
  | .hbm, ⟨51, _⟩ => ⟨S1x262144, .i32⟩
  | .hbm, ⟨52, _⟩ => ⟨S262144, .i32⟩
  | .hbm, ⟨53, _⟩ => ⟨S1x262144, .i32⟩
  | .hbm, ⟨54, _⟩ => ⟨S262144, .i32⟩
  | .hbm, ⟨55, _⟩ => ⟨S_, .i32⟩
  | .hbm, ⟨56, _⟩ => ⟨S262144, .i32⟩
  | .hbm, ⟨57, _⟩ => ⟨S262144, .i1⟩
  | .hbm, ⟨58, _⟩ => ⟨S_, .i32⟩
  | .hbm, ⟨59, _⟩ => ⟨S262144, .i32⟩
  | .hbm, ⟨60, _⟩ => ⟨S262144, .i32⟩
  | .hbm, ⟨61, _⟩ => ⟨S262144, .i32⟩
  | .hbm, ⟨62, _⟩ => ⟨S_, .i32⟩
  | .hbm, ⟨63, _⟩ => ⟨S262144, .i32⟩
  | .hbm, ⟨64, _⟩ => ⟨S262144, .i1⟩
  | .hbm, ⟨65, _⟩ => ⟨S_, .i32⟩
  | .hbm, ⟨66, _⟩ => ⟨S262144, .i32⟩
  | .hbm, ⟨67, _⟩ => ⟨S262144, .i32⟩
  | .hbm, ⟨68, _⟩ => ⟨S262144, .i32⟩
  | .hbm, ⟨69, _⟩ => ⟨S262144x1, .i32⟩
  | .hbm, ⟨70, _⟩ => ⟨S262144x1, .i32⟩
  | .hbm, ⟨71, _⟩ => ⟨S262144x2, .i32⟩
  | .hbm, ⟨72, _⟩ => ⟨S_, .f32⟩
  | .hbm, ⟨73, _⟩ => ⟨S262144, .f32⟩
  | .hbm, ⟨74, _⟩ => ⟨S8192x8192, .f32⟩
  | .hbm, ⟨75, _⟩ => ⟨S_, .f32⟩
  | .hbm, ⟨76, _⟩ => ⟨S8192x8192, .f32⟩
  | .hbm, ⟨77, _⟩ => ⟨S8192x8192, .f32⟩
  | .hbm, ⟨78, _⟩ => ⟨S8192x8192, .f32⟩
  | .hbm, ⟨79, _⟩ => ⟨S8192x8192, .f32⟩
  | .hbm, ⟨80, _⟩ => ⟨S8192x8192, .f32⟩
  | .hbm, ⟨81, _⟩ => ⟨S8192x8192, .f32⟩
  | .hbm, ⟨82, _⟩ => ⟨S8192x8192, .f32⟩
  | .hbm, ⟨83, _⟩ => ⟨S8192x8192, .f32⟩
  | .hbm, ⟨84, _⟩ => ⟨S8192x8192, .f32⟩
  | .hbm, ⟨85, _⟩ => ⟨S_, .f32⟩
  | .hbm, ⟨86, _⟩ => ⟨S_, .f32⟩
  | .hbm, ⟨87, _⟩ => ⟨S_, .f32⟩
  | .hbm, ⟨88, _⟩ => ⟨S_, .f32⟩
  | .hbm, ⟨89, _⟩ => ⟨S_, .f32⟩
  | .hbm, ⟨90, _⟩ => ⟨S_, .f32⟩
  | .hbm, ⟨91, _⟩ => ⟨S_, .f32⟩
  | .hbm, ⟨92, _⟩ => ⟨S_, .f32⟩
  | .hbm, ⟨93, _⟩ => ⟨S_, .f32⟩
  | .hbm, ⟨94, _⟩ => ⟨S_, .f32⟩
  | .hbm, ⟨95, _⟩ => ⟨S_, .f32⟩
  | .hbm, ⟨96, _⟩ => ⟨S_, .f32⟩
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_5 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_8 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_cst_9 : Ref sig .tc := ⟨.hbm, 42, rfl⟩
abbrev main_v28 : Ref sig .tc := ⟨.hbm, 43, rfl⟩
abbrev main_v29 : Ref sig .tc := ⟨.hbm, 44, rfl⟩
abbrev main_cst_10 : Ref sig .tc := ⟨.hbm, 45, rfl⟩
abbrev main_v30 : Ref sig .tc := ⟨.hbm, 46, rfl⟩
abbrev main_cst_11 : Ref sig .tc := ⟨.hbm, 47, rfl⟩
abbrev main_v31 : Ref sig .tc := ⟨.hbm, 48, rfl⟩
abbrev main_cst_12 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_c : Ref sig .tc := ⟨.hbm, 55, rfl⟩
abbrev main_v37 : Ref sig .tc := ⟨.hbm, 56, rfl⟩
abbrev main_v38 : Ref sig .tc := ⟨.hbm, 57, rfl⟩
abbrev main_c_13 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_c_14 : Ref sig .tc := ⟨.hbm, 62, rfl⟩
abbrev main_v42 : Ref sig .tc := ⟨.hbm, 63, rfl⟩
abbrev main_v43 : Ref sig .tc := ⟨.hbm, 64, rfl⟩
abbrev main_c_15 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_cst_16 : Ref sig .tc := ⟨.hbm, 72, rfl⟩
abbrev main_v50 : Ref sig .tc := ⟨.hbm, 73, rfl⟩
abbrev main_v51 : Ref sig .tc := ⟨.hbm, 74, rfl⟩
abbrev main_cst_17 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_cst_18 : Ref sig .tc := ⟨.hbm, 85, rfl⟩
abbrev main_v61 : Ref sig .tc := ⟨.hbm, 86, rfl⟩
abbrev main_cst_19 : Ref sig .tc := ⟨.hbm, 87, rfl⟩
abbrev main_v62 : Ref sig .tc := ⟨.hbm, 88, rfl⟩
abbrev main_cst_20 : Ref sig .tc := ⟨.hbm, 89, rfl⟩
abbrev main_v63 : Ref sig .tc := ⟨.hbm, 90, rfl⟩
abbrev main_cst_21 : Ref sig .tc := ⟨.hbm, 91, rfl⟩
abbrev main_v64 : Ref sig .tc := ⟨.hbm, 92, rfl⟩
abbrev main_v65 : Ref sig .tc := ⟨.hbm, 93, rfl⟩
abbrev main_cst_22 : Ref sig .tc := ⟨.hbm, 94, rfl⟩
abbrev main_v66 : Ref sig .tc := ⟨.hbm, 95, rfl⟩
abbrev main_v67 : Ref sig .tc := ⟨.hbm, 96, rfl⟩

abbrev nD : Nat := 1
abbrev τ : Topo := Topo.v7x

variable {F : FTy → Type} [FloatOps F]

class Facts₀ : Prop where
  reducesTo_S8192x256_S_d0_1 : S8192x256.ReducesTo [0, 1] S_
  h_S_ : 0 < S_.numel
  reducesTo_S8192x256_S8192_d1 : S8192x256.ReducesTo [1] S8192
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x256_0_1 : S8192x1.BroadcastsInDim S8192x256 (![0, 1] : Fin 2 → Fin S8192x256.rank)
  bcast_S_S8192 : S_.BroadcastsInDim S8192 (![] : Fin 0 → Fin S8192.rank)
  reducesTo_S8192_S_d0 : S8192.ReducesTo [0] S_
  bcast_S_S8192x8192 : S_.BroadcastsInDim S8192x8192 (![] : Fin 0 → Fin S8192x8192.rank)
  slices_S2x262144_S1x262144_0_0 : S2x262144.Slices ![0, 0] S1x262144
  shapeCasts_S1x262144_S262144 : S1x262144.ShapeCasts S262144
  slices_S2x262144_S1x262144_1_0 : S2x262144.Slices ![1, 0] S1x262144
  bcast_S_S262144 : S_.BroadcastsInDim S262144 (![] : Fin 0 → Fin S262144.rank)
  bcast_S262144_S262144x1_0 : S262144.BroadcastsInDim S262144x1 (![0] : Fin 1 → Fin S262144x1.rank)
  concatenates_S262144x1_S262144x1_S262144x2_d1 : Shape.Concatenates [S262144x1, S262144x1] S262144x2 1
  reducesTo_S8192x8192_S_d0_1 : S8192x8192.ReducesTo [0, 1] S_
  scatter_S8192x8192_S262144x2_S262144_n_01_01_1_wf : ScatterDims.WF S8192x8192 S262144x2 S262144 [] [0, 1] [0, 1] 1

variable [Facts₀]

def scatter_S8192x8192_S262144x2_S262144_n_01_01_1 : ScatterDims S8192x8192 S262144x2 S262144 where
  updateWindowDims := []
  insertedWindowDims := [0, 1]
  scatterDimsToOperandDims := [0, 1]
  indexVectorDim := 1
  wf := scatter_S8192x8192_S262144x2_S262144_n_01_01_1_wf

class Facts : Prop extends Facts₀ where

variable [Facts]
-- ==== Proof.Spec.lean ====
/-
  The three accumulated quantities of this loss, written once as plain sums over extended reals, for both programs to be
  compared against. They are built from functions of ONE ROW (256 features), so that a block of rows and the whole array
  are summed over the same terms.

  * `rowSq a b`   : the sum over a row's 256 features of the squared difference (a - b)^2.
  * `rowCorr a b` : one minus the Pearson correlation of two rows: deviations are taken from each row's mean (its sum
    divided by 256), the denominator is the product of the two root sums of squared deviations plus the small
    constant both programs add.
  * `bce x z`     : max(x,0) - x*z + log(1 + exp(-|x|)), with |x| = max x (-x).
  * `mseTotal`, `corrTotal` : the sums of `rowSq`, `rowCorr` over the 8192 rows; `bceTotal`: the sum of `bce` over
    all 8192 x 8192 pairs.

  The last section is the one law that joins a blocked sum to a whole one: a sum over m*n consecutive positions is the
  double sum over m blocks of n positions each. Sums of extended reals commute and associate, so no finiteness is used.
-/
import Idealize.ShloMosaic.PureOps.Ideal
import Idealize.ShloMosaic.PureOps.Ideal.Laws
import Idealize.ShloMosaic.Lib.ValueIdx
import Mathlib.Algebra.BigOperators.Fin
import Mathlib.Logic.Equiv.Fin.Basic

noncomputable section

open scoped BigOperators

namespace Cert.Spec

open Idealize.ShloMosaic Idealize.ShloMosaic.ValueIdx

/-- A node-feature array: 8192 rows of 256 features. -/
abbrev Node := (⟨2, ![8192, 256]⟩ : Shape).Idx → EReal
/-- A node-pair array: 8192 x 8192. -/
abbrev Pair := (⟨2, ![8192, 8192]⟩ : Shape).Idx → EReal
/-- One row of features. -/
abbrev Row := Fin 256 → EReal

/-- The sum over a row of the squared difference of two rows. -/
def rowSq (a b : Row) : EReal := ∑ k : Fin 256, (a k - b k) * (a k - b k)

/-- A row's mean: its sum divided by 256. -/
def rowMean (a : Row) : EReal := Ideal.div (∑ k : Fin 256, a k) (Ideal.ofBits .f32 0x43800000#32)

/-- One minus the correlation of two rows. -/
def rowCorr (a b : Row) : EReal :=
  Ideal.ofBits .f32 0x3F800000#32
    - Ideal.div (∑ k : Fin 256, (a k - rowMean a) * (b k - rowMean b))
        (Ideal.sqrt (∑ k : Fin 256, (a k - rowMean a) * (a k - rowMean a))
            * Ideal.sqrt (∑ k : Fin 256, (b k - rowMean b) * (b k - rowMean b))
          + Ideal.ofBits .f32 0x2B8CBCCC#32)

/-- Row `i` of a node-feature array. -/
def row (x : Node) (i : Fin 8192) : Row := fun k => x (ix2 i k)

/-- The sum of squared differences over every entry. -/
def mseTotal (p t : Node) : EReal := ∑ i : Fin 8192, rowSq (row p i) (row t i)

/-- The sum over the rows of one minus the row correlation. -/
def corrTotal (p t : Node) : EReal := ∑ i : Fin 8192, rowCorr (row p i) (row t i)

/-- The stable binary cross-entropy of a logit `x` against a label `z`. -/
def bce (x z : EReal) : EReal := max x 0 - x * z + Ideal.log1p (Ideal.exp (-(max x (-x))))

/-- The sum of the cross-entropy over every pair. -/
def bceTotal (x z : Pair) : EReal := ∑ i : Fin 8192, ∑ k : Fin 8192, bce (x (ix2 i k)) (z (ix2 i k))

/-! ## Blocks of consecutive positions -/

/-- A sum over `m * n` consecutive positions is the sum over `m` blocks of the sum over the `n` positions of each. -/
theorem sum_blocks {M : Type*} [AddCommMonoid M] (m n : Nat) (f : Fin (m * n) → M) :
    ∑ i : Fin (m * n), f i
      = ∑ g : Fin m, ∑ r : Fin n, f ⟨n * g.val + r.val, by
          have := g.isLt; have := r.isLt
          calc n * g.val + r.val < n * g.val + n := by omega
            _ = n * (g.val + 1) := by ring
            _ ≤ n * m := Nat.mul_le_mul_left n (by omega)
            _ = m * n := Nat.mul_comm n m⟩ := by
  rw [← Equiv.sum_comp (finProdFinEquiv (m := m) (n := n)) f, Fintype.sum_prod_type]
  refine Finset.sum_congr rfl fun g _ => Finset.sum_congr rfl fun r _ => congrArg f (Fin.ext ?_)
  show r.val + n * g.val = n * g.val + r.val
  omega

/-- 8192 positions as 8 blocks of 1024. -/
theorem sum_8x1024 {M : Type*} [AddCommMonoid M] (f : Fin 8192 → M) :
    ∑ i : Fin 8192, f i = ∑ g : Fin 8, ∑ r : Fin 1024, f ⟨1024 * g.val + r.val, by have := g.isLt; have := r.isLt; omega⟩ :=
  sum_blocks 8 1024 f

/-- 8192 positions as 16 blocks of 512. -/
theorem sum_16x512 {M : Type*} [AddCommMonoid M] (f : Fin 8192 → M) :
    ∑ i : Fin 8192, f i = ∑ g : Fin 16, ∑ r : Fin 512, f ⟨512 * g.val + r.val, by have := g.isLt; have := r.isLt; omega⟩ :=
  sum_blocks 16 512 f

end Cert.Spec

end
-- ==== Proof.NodePayload.lean ====
/-
  The arithmetic of the node kernel's body on one block of 1024 rows by 256 features, read entry by entry over the
  extended reals.

  A lane sum along the feature axis is the sum over the 256 features of a row; the reshapes between a vector of row values,
  a one-row matrix and a one-column matrix move no value; a broadcast of a column repeats each row's value along the row.
  So the block's first partial is the sum over its rows of the rows' squared-difference sums, its second the sum over its
  rows of one minus the row correlation (means as row sums over 256, deviations, three sums of products, two square roots,
  the small constant, the quotient), and the two accumulator updates add a partial to the one entry that was there.
-/
import proofs.«154292_j34342558499116_1_alg».proof.Proof.Gen.KernelIdeal.Skeleton
import proofs.«154292_j34342558499116_1_alg».proof.Proof.Spec
import Idealize.ShloMosaic.Lib.Pipeline.Value
import Idealize.ShloMosaic.Lib.ValueLayout
import Idealize.ShloMosaic.PureOps.Ideal.Laws

set_option maxRecDepth 16384

noncomputable section

open scoped BigOperators

namespace Cert.KernelIdeal.NodePayload

open Cert.KernelIdeal Cert.KernelIdeal.Gen
open Idealize.ShloMosaic Idealize.ShloMosaic.ValueIdx

/-- Row `r` of a block of 1024 rows. -/
def brow (x : Vec Ideal S1024x256 .f32) (r : Fin 1024) : Cert.Spec.Row := fun k => x (ix2 r k)

/-! ## The non-pointwise operations of the body, each read at explicit coordinates -/

section Layout
variable {α : Type}

/-- A sum along the lanes (axis 1) of an `[a, b]` array of extended reals, from the zero word: at row `r` it is the
    sum over the `b` lanes of the entries of that row. -/
theorem laneSum_apply {a b : ℕ} (v : FVec Ideal ⟨2, ![a, b]⟩ .f32)
    (h : (⟨2, ![a, b]⟩ : Shape).Reduces [1] ⟨1, ![a]⟩) (hφ : FKind.Formats .f32)
    (hacc : (0x00000000#32 : BitVec 32) = FKind.add.neutral .f32 hφ) (r : Fin a) :
    multiReduction .add [1] ⟨1, ![a]⟩ v 0x00000000#32 h hφ hacc (ix1 r) = ∑ k : Fin b, v (ix2 r k) := by
  refine (Ideal.multiReduction_add_single v 0x00000000#32 h hφ hacc (ix1 r)).trans ?_
  refine Finset.sum_congr rfl fun k _ => congrArg v ?_
  funext c
  match c with
  | ⟨0, _⟩ => rfl
  | ⟨1, _⟩ => rfl

/-- An `[a]` array cast to the column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast along the lanes to `[a, b]` reads, at `(p, c)`, the column's entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The entry at position `[0, 0]` of a `[1, 1]` array is its entry at `(0, 0)`. -/
theorem extractAt_00 (v : (⟨2, ![1, 1]⟩ : Shape).Idx → α) (h : ∀ a, (![0, 0] : Fin 2 → Nat) a < (⟨2, ![1, 1]⟩ : Shape).size a) :
    extractAt ![0, 0] v h = v (ix2 (0 : Fin 1) (0 : Fin 1)) := by
  unfold extractAt
  refine congrArg v ?_
  funext c
  match c with
  | ⟨0, _⟩ => rfl
  | ⟨1, _⟩ => rfl

end Layout

/-! ## A row's deviation from its mean, and the tail of the correlation, read at explicit coordinates -/

/-- An entry less its row's mean: the row sum is cast to a column, divided by 256, broadcast back along the lanes and
    subtracted. -/
theorem dev_apply (x : Vec Ideal S1024x256 .f32) (h1 : S1024x256.Reduces [1] S1024) (hφ : FKind.Formats .f32)
    (hacc : (0x00000000#32 : BitVec 32) = FKind.add.neutral .f32 hφ) (h2 : S1024.ShapeCasts S1024x1)
    (h3 : S1024x1.Broadcasts S1024x256) (r : Fin 1024) (k : Fin 256) :
    subf x (broadcastTo S1024x256
        (divf (shapeCast S1024x1 (multiReduction .add [1] S1024 x 0x00000000#32 h1 hφ hacc) h2)
          (broadcast S1024x1 (Scalar.ofBits (F := Ideal) .f32 0x43800000#32))) h3) (ix2 r k)
      = brow x r k - Cert.Spec.rowMean (brow x r) := by
  refine (subf_apply _ _ _).trans ?_
  refine congrArg (x (ix2 r k) - ·) ?_
  refine (broadcastTo_a1_ab_apply _ h3 r k).trans ?_
  refine (divf_apply _ _ _).trans ?_
  refine congrArg (Ideal.div · (Ideal.ofBits .f32 0x43800000#32)) ?_
  refine (shapeCast_a_a1_apply _ h2 r (0 : Fin 1)).trans ?_
  exact laneSum_apply x h1 hφ hacc r

/-- One minus a quotient whose denominator is a product of two roots plus a constant, read at a row, with the three
    row quantities named. -/
theorem corr_tail (n25 n27 n29 : FVec Ideal S1024 .f32) (r : Fin 1024) (A B C : EReal)
    (hA : n25 (ix1 r) = A) (hB : n27 (ix1 r) = B) (hC : n29 (ix1 r) = C) :
    subf (broadcast S1024 (Scalar.ofBits (F := Ideal) .f32 0x3F800000#32))
        (divf n25 (addf (mulf (sqrt n27) (sqrt n29)) (broadcast S1024 (Scalar.ofBits (F := Ideal) .f32 0x2B8CBCCC#32)))) (ix1 r)
      = Ideal.ofBits .f32 0x3F800000#32
          - Ideal.div A (Ideal.sqrt B * Ideal.sqrt C + Ideal.ofBits .f32 0x2B8CBCCC#32) := by
  subst hA hB hC
  rfl

/-- The first partial of a block: the sum over its 1024 rows of the rows' squared-difference sums. -/
theorem pay5_eq (x0 x1 : Vec Ideal S1024x256 .f32) :
    k0_pay5 (F := Ideal) x0 x1 = ∑ r : Fin 1024, Cert.Spec.rowSq (brow x0 r) (brow x1 r) := by
  unfold k0_pay5
  refine (extractAt_00 _ _).trans ?_
  refine (shapeCast_a_1a_apply _ _ (0 : Fin 1) (0 : Fin 1)).trans ?_
  refine (laneSum_apply _ _ _ _ (0 : Fin 1)).trans ?_
  refine Finset.sum_congr rfl fun r _ => ?_
  refine (shapeCast_a_1a_apply _ _ (0 : Fin 1) r).trans ?_
  refine (laneSum_apply _ _ _ _ r).trans ?_
  rfl

/-- The second partial of a block, a one-entry vector: the sum over its 1024 rows of one minus the row correlation. -/
theorem pay6_eq (x0 x1 : Vec Ideal S1024x256 .f32) (j : S1.Idx) :
    k0_pay6 (F := Ideal) x0 x1 j = ∑ r : Fin 1024, Cert.Spec.rowCorr (brow x0 r) (brow x1 r) := by
  obtain rfl : j = ix1 (0 : Fin 1) := (eq_ix1 j).trans (congrArg ix1 (Subsingleton.elim (α := Fin 1) _ _))
  unfold k0_pay6
  refine (laneSum_apply _ _ _ _ (0 : Fin 1)).trans ?_
  refine Finset.sum_congr rfl fun r _ => ?_
  refine (shapeCast_a_1a_apply _ _ (0 : Fin 1) r).trans ?_
  unfold Cert.Spec.rowCorr
  refine corr_tail _ _ _ r _ _ _ ?_ ?_ ?_
  · refine (laneSum_apply _ _ _ _ r).trans (Finset.sum_congr rfl fun k _ => ?_)
    exact (mulf_apply _ _ _).trans (congrArg₂ (· * ·) (dev_apply x0 _ _ _ _ _ r k) (dev_apply x1 _ _ _ _ _ r k))
  · refine (laneSum_apply _ _ _ _ r).trans (Finset.sum_congr rfl fun k _ => ?_)
    exact (mulf_apply _ _ _).trans (congrArg₂ (· * ·) (dev_apply x0 _ _ _ _ _ r k) (dev_apply x0 _ _ _ _ _ r k))
  · refine (laneSum_apply _ _ _ _ r).trans (Finset.sum_congr rfl fun k _ => ?_)
    exact (mulf_apply _ _ _).trans (congrArg₂ (· * ·) (dev_apply x1 _ _ _ _ _ r k) (dev_apply x1 _ _ _ _ _ r k))

/-- The first accumulator's update adds the scalar partial to what was there. -/
theorem pay1_eq (v : Ideal .f32) (acc : Vec Ideal S1x1 .f32) (y : S1x1.Idx) :
    k0_pay1 (F := Ideal) v acc y = acc y + v := by
  unfold k0_pay1
  rw [shapeCast_self]
  rfl

/-- The second accumulator's update adds the one-entry partial to what was there. -/
theorem pay2_eq (v : FVec Ideal S1 .f32) (acc : Vec Ideal S1x1 .f32) (y : S1x1.Idx) :
    k0_pay2 (F := Ideal) v acc y = acc y + v (ix1 0) := by
  unfold k0_pay2
  rw [shapeCast_self]
  refine (addf_apply _ _ y).trans ?_
  refine congrArg (acc y + ·) ?_
  refine (broadcast_apply _ y).trans ?_
  refine (extractAt_00 _ _).trans ?_
  exact shapeCast_a_1a_apply _ _ (0 : Fin 1) (0 : Fin 1)

/-- Both accumulators are reset to zero. -/
theorem pay3_eq (y : S1x1.Idx) : k0_pay3 (F := Ideal) y = 0 := by
  unfold k0_pay3
  exact Ideal.ofBits_zero_f32
theorem pay4_eq (y : S1x1.Idx) : k0_pay4 (F := Ideal) y = 0 := by
  unfold k0_pay4
  exact Ideal.ofBits_zero_f32

end Cert.KernelIdeal.NodePayload

end
-- ==== Proof.NodeSums.lean ====
/-
  What the first pipeline leaves in its two one-entry output arrays.

  The pipeline visits eight points; point `t` sees rows `1024 t … 1024 t + 1023` of the two argument arrays. Each output
  is an accumulator of one entry: the first point resets it to zero and adds its block's partial, every later point adds
  its block's partial to what the point before left, and only the last point writes the entry back to the array.

  * the four values the body leaves (first point / later point, first / second accumulator) are read off the stores the
    body's run found: the last covering store's payload, whose loads read whole buffers;
  * by induction on the point, after point `n` an accumulator holds `0 + ∑_{s ≤ n}` of the blocks' partials;
  * a block's row `r` at point `t` is row `1024 t + r` of the array, so a block's partial is the sum of the row terms
    over those 1024 rows;
  * the last point's write-back covers the one-entry array, so the array ends at `0 + ∑_{s < 8}` of the partials, and a
    sum over 8 blocks of 1024 rows is the sum over all 8192 rows. Sums of extended reals commute and associate, and
    `0 + x = x`, so no finiteness is used.
-/
import proofs.«154292_j34342558499116_1_alg».proof.Proof.Gen.KernelIdeal.Frame
import proofs.«154292_j34342558499116_1_alg».proof.Proof.Spec
import proofs.«154292_j34342558499116_1_alg».proof.Proof.NodePayload
import Idealize.ShloMosaic.Lib.Pipeline.Value
import Idealize.ShloMosaic.PureOps.Ideal.Laws
set_option maxRecDepth 16384

noncomputable section

open scoped BigOperators

namespace Cert.KernelIdeal.NodeSums

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

/-- The zero offsets of a whole one-entry (or whole 1024 x 256) block. -/
theorem hz : (![0, 0] : Fin 2 → Nat) = fun _ => 0 := funext fun a => by fin_cases a <;> rfl

section Pieces
variable {F : FTy → Type} [FloatOps F]

/-- At a point after the first, the body leaves in the first accumulator its update of what was there by the block's
    first partial: its one store covers the entry, and its loads read the whole buffers. -/
theorem out_B_2 (c : Dev nD) (i : grid0.Coords) (a1 : Memref sig .tc .vmem S1024x256 .f32) (h1 : a1.IsWhole)
    (a2 : Memref sig .tc .vmem S1024x256 .f32) (h2 : a2.IsWhole) (a3 : Memref sig .tc .vmem S1x1 .f32) (h3 : a3.IsWhole)
    (a4 : Memref sig .tc .vmem S1x1 .f32) (h4 : a4.IsWhole) (hc : ¬cond0_0 i)
    (x0 x1 : Vec F S1024x256 .f32) (xo2 xo3 : Vec F S1x1 .f32) :
    out0_B_2 c i a1 h1 a2 h2 a3 h3 a4 h4 hc x0 x1 xo2 xo3 = k0_pay1 (k0_pay5 x0 x1) xo2 := by
  unfold out0_B_2
  rw [View.read_writes_eq_canon _ _ _ (cover0_B_2 c i a1 h1 a2 h2 a3 h3 a4 h4 hc x0 x1 xo2 xo3)]
  unfold kernelRun0_B
  dsimp only
  sl_unfold_words
  rw [View.canon_unit_zero (S := S1x1) hz]
  simp only [View.readAt_eq_ld, h1.read_unread, h2.read_unread, h3.read_unread, h4.read_unread,
    View.ld_unit_zero (S := S1024x256) hz, View.ld_unit_zero (S := S1x1) hz]

/-- The same for the second accumulator and the block's second partial. -/
theorem out_B_3 (c : Dev nD) (i : grid0.Coords) (a1 : Memref sig .tc .vmem S1024x256 .f32) (h1 : a1.IsWhole)
    (a2 : Memref sig .tc .vmem S1024x256 .f32) (h2 : a2.IsWhole) (a3 : Memref sig .tc .vmem S1x1 .f32) (h3 : a3.IsWhole)
    (a4 : Memref sig .tc .vmem S1x1 .f32) (h4 : a4.IsWhole) (hc : ¬cond0_0 i)
    (x0 x1 : Vec F S1024x256 .f32) (xo2 xo3 : Vec F S1x1 .f32) :
    out0_B_3 c i a1 h1 a2 h2 a3 h3 a4 h4 hc x0 x1 xo2 xo3 = k0_pay2 (k0_pay6 x0 x1) xo3 := by
  unfold out0_B_3
  rw [View.read_writes_eq_canon _ _ _ (cover0_B_3 c i a1 h1 a2 h2 a3 h3 a4 h4 hc x0 x1 xo2 xo3)]
  unfold kernelRun0_B
  dsimp only
  sl_unfold_words
  rw [View.canon_unit_zero (S := S1x1) hz]
  simp only [View.readAt_eq_ld, h1.read_unread, h2.read_unread, h3.read_unread, h4.read_unread,
    View.ld_unit_zero (S := S1024x256) hz, View.ld_unit_zero (S := S1x1) hz]

/-- At the first point the body stores the reset value, reads it back and leaves its update by the block's first
    partial: the later store covers the entry, and what it read is the reset value. -/
theorem out_A_2 (c : Dev nD) (i : grid0.Coords) (a1 : Memref sig .tc .vmem S1024x256 .f32) (h1 : a1.IsWhole)
    (a2 : Memref sig .tc .vmem S1024x256 .f32) (h2 : a2.IsWhole) (a3 : Memref sig .tc .vmem S1x1 .f32) (h3 : a3.IsWhole)
    (a4 : Memref sig .tc .vmem S1x1 .f32) (h4 : a4.IsWhole) (hc : cond0_0 i)
    (x0 x1 : Vec F S1024x256 .f32) :
    out0_A_2 c i a1 h1 a2 h2 a3 h3 a4 h4 hc x0 x1 = k0_pay1 (k0_pay5 x0 x1) k0_pay3 := by
  unfold out0_A_2
  rw [View.read_writes_eq_canon _ _ _ (cover0_A_2 c i a1 h1 a2 h2 a3 h3 a4 h4 hc x0 x1)]
  unfold kernelRun0_A
  dsimp only
  sl_unfold_words
  rw [View.canon_cons_unit_zero (S := S1x1) hz, View.readCov_unit_zero (S := S1x1) _ hz]
  simp only [View.readAt_eq_ld, h1.read_unread, h2.read_unread,
    View.ld_unit_zero (S := S1024x256) hz, View.ld_unit_zero (S := S1x1) hz]

/-- The same for the second accumulator. -/
theorem out_A_3 (c : Dev nD) (i : grid0.Coords) (a1 : Memref sig .tc .vmem S1024x256 .f32) (h1 : a1.IsWhole)
    (a2 : Memref sig .tc .vmem S1024x256 .f32) (h2 : a2.IsWhole) (a3 : Memref sig .tc .vmem S1x1 .f32) (h3 : a3.IsWhole)
    (a4 : Memref sig .tc .vmem S1x1 .f32) (h4 : a4.IsWhole) (hc : cond0_0 i)
    (x0 x1 : Vec F S1024x256 .f32) :
    out0_A_3 c i a1 h1 a2 h2 a3 h3 a4 h4 hc x0 x1 = k0_pay2 (k0_pay6 x0 x1) k0_pay4 := by
  unfold out0_A_3
  rw [View.read_writes_eq_canon _ _ _ (cover0_A_3 c i a1 h1 a2 h2 a3 h3 a4 h4 hc x0 x1)]
  unfold kernelRun0_A
  dsimp only
  sl_unfold_words
  rw [View.canon_cons_unit_zero (S := S1x1) hz, View.readCov_unit_zero (S := S1x1) _ hz]
  simp only [View.readAt_eq_ld, h1.read_unread, h2.read_unread,
    View.ld_unit_zero (S := S1024x256) hz, View.ld_unit_zero (S := S1x1) hz]

end Pieces

-- The buffer contents the first pipeline is entered from: a parameter, as in the generated frame.
variable (V : (c : Dev nD) → (b : Ref sig .tc) → Buf (Elt Ideal) ((c : Thread nD τ).loc b))

/-- The block of 1024 rows of the first argument that point `t` reads, and of the second. -/
abbrev pblk (c : Dev nD) (t : Fin cfg0.N) : Vec Ideal S1024x256 .f32 := iblk0 V c 0 t
abbrev tblk (c : Dev nD) (t : Fin cfg0.N) : Vec Ideal S1024x256 .f32 := iblk0 V c 1 t
/-- The two argument arrays as the region finds them. -/
abbrev parr (c : Dev nD) : Cert.Spec.Node := V c main_arg0
abbrev tarr (c : Dev nD) : Cert.Spec.Node := V c main_arg1

/-- What point `s` adds to the first accumulator: its block's sum of squared differences (nothing past the grid). -/
def msePart (c : Dev nD) (s : ℕ) : EReal :=
  if h : s < cfg0.N then k0_pay5 (F := Ideal) (pblk V c ⟨s, h⟩) (tblk V c ⟨s, h⟩) else 0

/-- What point `s` adds to the second accumulator: its block's sum of one minus the row correlations. -/
def corrPart (c : Dev nD) (s : ℕ) : EReal :=
  if h : s < cfg0.N then k0_pay6 (F := Ideal) (pblk V c ⟨s, h⟩) (tblk V c ⟨s, h⟩) (ix1 0) else 0

/-- After point `n` each accumulator holds zero plus the contributions of points `0 … n`: the first point resets and
    adds its own, every later one adds to what the point before left. By induction on the point. -/
theorem outs_eq (c : Dev nD) : ∀ (n : ℕ) (hn : n < cfg0.N) (y : S1x1.Idx),
    ((outsAt0 V c n hn).1 y : EReal) = 0 + ∑ s ∈ Finset.range (n + 1), msePart V c s
    ∧ ((outsAt0 V c n hn).2 y : EReal) = 0 + ∑ s ∈ Finset.range (n + 1), corrPart V c s
  | 0, hn, y => by
    rw [outsAt0_A V c ⟨0, hn⟩ rfl]
    dsimp only
    constructor
    · refine (congrFun (out_A_2 (F := Ideal) c (grid0.coords ⟨0, hn⟩) (ms0_0 ⟨0, hn⟩) (hs0_0 ⟨0, hn⟩) (ms0_1 ⟨0, hn⟩)
        (hs0_1 ⟨0, hn⟩) (ms0_2 ⟨0, hn⟩) (hs0_2 ⟨0, hn⟩) (ms0_3 ⟨0, hn⟩) (hs0_3 ⟨0, hn⟩)
        ((hcond0_0 ⟨0, hn⟩).mpr rfl) (pblk V c ⟨0, hn⟩) (tblk V c ⟨0, hn⟩)) y).trans ?_
      rw [NodePayload.pay1_eq, NodePayload.pay3_eq, Finset.sum_range_one, msePart, dif_pos hn]
    · refine (congrFun (out_A_3 (F := Ideal) c (grid0.coords ⟨0, hn⟩) (ms0_0 ⟨0, hn⟩) (hs0_0 ⟨0, hn⟩) (ms0_1 ⟨0, hn⟩)
        (hs0_1 ⟨0, hn⟩) (ms0_2 ⟨0, hn⟩) (hs0_2 ⟨0, hn⟩) (ms0_3 ⟨0, hn⟩) (hs0_3 ⟨0, hn⟩)
        ((hcond0_0 ⟨0, hn⟩).mpr rfl) (pblk V c ⟨0, hn⟩) (tblk V c ⟨0, hn⟩)) y).trans ?_
      rw [NodePayload.pay2_eq, NodePayload.pay4_eq, Finset.sum_range_one, corrPart, dif_pos hn]
  | n + 1, hn, y => by
    have hN : cfg0.N = 8 := N_0
    have hB : ¬(⟨n + 1, hn⟩ : Fin cfg0.N).val % 8 = 0 := by dsimp only; omega
    have ih := outs_eq c n (Nat.lt_of_succ_lt hn) y
    rw [outsAt0_B V c ⟨n + 1, hn⟩ hB]
    dsimp only
    constructor
    · refine (congrFun (out_B_2 (F := Ideal) c (grid0.coords ⟨n + 1, hn⟩) (ms0_0 ⟨n + 1, hn⟩) (hs0_0 ⟨n + 1, hn⟩)
        (ms0_1 ⟨n + 1, hn⟩) (hs0_1 ⟨n + 1, hn⟩) (ms0_2 ⟨n + 1, hn⟩) (hs0_2 ⟨n + 1, hn⟩) (ms0_3 ⟨n + 1, hn⟩)
        (hs0_3 ⟨n + 1, hn⟩) (fun h => hB ((hcond0_0 ⟨n + 1, hn⟩).mp h)) (pblk V c ⟨n + 1, hn⟩) (tblk V c ⟨n + 1, hn⟩)
        (outsAt0 V c n (Nat.lt_of_succ_lt hn)).1 (outsAt0 V c n (Nat.lt_of_succ_lt hn)).2) y).trans ?_
      rw [NodePayload.pay1_eq, ih.1, Finset.sum_range_succ _ (n + 1), add_assoc]
      congr 2
      rw [msePart, dif_pos hn]
    · refine (congrFun (out_B_3 (F := Ideal) c (grid0.coords ⟨n + 1, hn⟩) (ms0_0 ⟨n + 1, hn⟩) (hs0_0 ⟨n + 1, hn⟩)
        (ms0_1 ⟨n + 1, hn⟩) (hs0_1 ⟨n + 1, hn⟩) (ms0_2 ⟨n + 1, hn⟩) (hs0_2 ⟨n + 1, hn⟩) (ms0_3 ⟨n + 1, hn⟩)
        (hs0_3 ⟨n + 1, hn⟩) (fun h => hB ((hcond0_0 ⟨n + 1, hn⟩).mp h)) (pblk V c ⟨n + 1, hn⟩) (tblk V c ⟨n + 1, hn⟩)
        (outsAt0 V c n (Nat.lt_of_succ_lt hn)).1 (outsAt0 V c n (Nat.lt_of_succ_lt hn)).2) y).trans ?_
      rw [NodePayload.pay2_eq, ih.2, Finset.sum_range_succ _ (n + 1), add_assoc]
      congr 2
      rw [corrPart, dif_pos hn]

/-! ## A block's rows are rows of the array -/

/-- The input windows' index maps, decided once over the eight points: point `t` reads block `t` along the rows and the
    one block along the features. -/
theorem in_idx : ∀ t : Fin cfg0.N, win0_0.index t (0 : Fin 2) = t.val ∧ win0_0.index t (1 : Fin 2) = 0
    ∧ win0_1.index t (0 : Fin 2) = t.val ∧ win0_1.index t (1 : Fin 2) = 0 :=
  (by decide +kernel : ∀ t : Fin grid0.N, _)

/-- Entry `(r, k)` of the first argument's block at point `t` is entry `(1024 t + r, k)` of the array: a block's coordinate
    is the block index times the block's size plus the coordinate inside the block. -/
theorem pblk_apply (c : Dev nD) (t : Fin cfg0.N) (r : Fin 1024) (k : Fin 256) (h : 1024 * t.val + r.val < 8192) :
    pblk V c t (ix2 r k) = parr V c (ix2 ⟨1024 * t.val + r.val, h⟩ k) := by
  obtain ⟨e0, e1, -, -⟩ := in_idx t
  show V c main_arg0 (((cfg0.win 0).blk t).view.emb (ix2 r k)) = V c main_arg0 (ix2 ⟨1024 * t.val + r.val, h⟩ k)
  refine congrArg (V c main_arg0) (funext fun a => Fin.ext ?_)
  match a with
  | ⟨0, _⟩ => show win0_0.index t (0 : Fin 2) * 1024 + 1 * r.val = 1024 * t.val + r.val; omega
  | ⟨1, _⟩ => show win0_0.index t (1 : Fin 2) * 256 + 1 * k.val = k.val; omega

/-- The same for the second argument. -/
theorem tblk_apply (c : Dev nD) (t : Fin cfg0.N) (r : Fin 1024) (k : Fin 256) (h : 1024 * t.val + r.val < 8192) :
    tblk V c t (ix2 r k) = tarr V c (ix2 ⟨1024 * t.val + r.val, h⟩ k) := by
  obtain ⟨-, -, e0, e1⟩ := in_idx t
  show V c main_arg1 (((cfg0.win 1).blk t).view.emb (ix2 r k)) = V c main_arg1 (ix2 ⟨1024 * t.val + r.val, h⟩ k)
  refine congrArg (V c main_arg1) (funext fun a => Fin.ext ?_)
  match a with
  | ⟨0, _⟩ => show win0_1.index t (0 : Fin 2) * 1024 + 1 * r.val = 1024 * t.val + r.val; omega
  | ⟨1, _⟩ => show win0_1.index t (1 : Fin 2) * 256 + 1 * k.val = k.val; omega

/-- So row `r` of the block at point `t` is row `1024 t + r` of the array. -/
theorem brow_p (c : Dev nD) (t : Fin cfg0.N) (r : Fin 1024) (h : 1024 * t.val + r.val < 8192) :
    NodePayload.brow (pblk V c t) r = Cert.Spec.row (parr V c) ⟨1024 * t.val + r.val, h⟩ :=
  funext fun k => pblk_apply V c t r k h
theorem brow_t (c : Dev nD) (t : Fin cfg0.N) (r : Fin 1024) (h : 1024 * t.val + r.val < 8192) :
    NodePayload.brow (tblk V c t) r = Cert.Spec.row (tarr V c) ⟨1024 * t.val + r.val, h⟩ :=
  funext fun k => tblk_apply V c t r k h

/-! ## The eight contributions together are the sums over all 8192 rows -/

theorem mse_total (c : Dev nD) :
    (0 : EReal) + ∑ s ∈ Finset.range 8, msePart V c s = Cert.Spec.mseTotal (parr V c) (tarr V c) := by
  have hN : cfg0.N = 8 := N_0
  rw [zero_add, Finset.sum_range, Cert.Spec.mseTotal, Cert.Spec.sum_8x1024]
  refine Finset.sum_congr rfl fun g _ => ?_
  have hg : g.val < cfg0.N := by rw [hN]; exact g.isLt
  rw [msePart, dif_pos hg, NodePayload.pay5_eq]
  exact Finset.sum_congr rfl fun r _ =>
    congrArg₂ Cert.Spec.rowSq (brow_p V c ⟨g.val, hg⟩ r _) (brow_t V c ⟨g.val, hg⟩ r _)

theorem corr_total (c : Dev nD) :
    (0 : EReal) + ∑ s ∈ Finset.range 8, corrPart V c s = Cert.Spec.corrTotal (parr V c) (tarr V c) := by
  have hN : cfg0.N = 8 := N_0
  rw [zero_add, Finset.sum_range, Cert.Spec.corrTotal, Cert.Spec.sum_8x1024]
  refine Finset.sum_congr rfl fun g _ => ?_
  have hg : g.val < cfg0.N := by rw [hN]; exact g.isLt
  rw [corrPart, dif_pos hg, NodePayload.pay6_eq]
  exact Finset.sum_congr rfl fun r _ =>
    congrArg₂ Cert.Spec.rowCorr (brow_p V c ⟨g.val, hg⟩ r _) (brow_t V c ⟨g.val, hg⟩ r _)

/-! ## From the accumulators to the two one-entry arrays -/

/-- The output windows' index maps, decided over the grid: the one block, at every point. -/
theorem out_idx : ∀ t : Fin cfg0.N, ∀ a : Fin 2, win0_2.index t a = 0 ∧ win0_3.index t a = 0 :=
  (by decide +kernel : ∀ t : Fin grid0.N, _)

/-- An index of the first one-entry array is in point `t`'s block iff each coordinate is in the block's range. -/
theorem mem_out2 (t : Fin cfg0.N) (i : S1x1.Idx) :
    i ∈ ((cfg0.win 2).blk t).view.set
      ↔ ∀ a : Fin 2, win0_2.index t a * S1x1.size a ≤ (i a).val ∧ (i a).val < win0_2.index t a * S1x1.size a + S1x1.size a := by
  show i ∈ ((View.whole main_v0_0).slice (win0_2.rect t)).set ↔ _
  rw [View.set_slice_whole, Rect.mem_set_unit]
  exact Iff.rfl
theorem mem_out3 (t : Fin cfg0.N) (i : S1x1.Idx) :
    i ∈ ((cfg0.win 3).blk t).view.set
      ↔ ∀ a : Fin 2, win0_3.index t a * S1x1.size a ≤ (i a).val ∧ (i a).val < win0_3.index t a * S1x1.size a + S1x1.size a := by
  show i ∈ ((View.whole main_v0_1).slice (win0_3.rect t)).set ↔ _
  rw [View.set_slice_whole, Rect.mem_set_unit]
  exact Iff.rfl

/-- The one write-back of the first accumulator, at the last point, writes the sum over all rows. -/
theorem flushed2 (c : Dev nD) (t : Fin cfg0.N) (hf : (cfg0.win 2).flush t = true) :
    (dat0 V c).flushed 2 t
      = ((cfg0.win 2).blk t).view.read (Elt Ideal) (fun _ => Cert.Spec.mseTotal (parr V c) (tarr V c)) := by
  have hN : cfg0.N = 8 := N_0
  have h7 : t.val = 7 := by have := (flush0_2 t).mp hf; have := t.isLt; omega
  obtain rfl : t = t0_7 := Fin.ext h7
  show (cfg0.win 2).cut (grid0.coords t0_7) ((dat0 V c).after 2 t0_7) = _
  rw [after0_2]
  funext j
  exact ((outs_eq V c t0_7.val t0_7.isLt _).1).trans (mse_total V c)

theorem flushed3 (c : Dev nD) (t : Fin cfg0.N) (hf : (cfg0.win 3).flush t = true) :
    (dat0 V c).flushed 3 t
      = ((cfg0.win 3).blk t).view.read (Elt Ideal) (fun _ => Cert.Spec.corrTotal (parr V c) (tarr V c)) := by
  have hN : cfg0.N = 8 := N_0
  have h7 : t.val = 7 := by have := (flush0_3 t).mp hf; have := t.isLt; omega
  obtain rfl : t = t0_7 := Fin.ext h7
  show (cfg0.win 3).cut (grid0.coords t0_7) ((dat0 V c).after 3 t0_7) = _
  rw [after0_3]
  funext j
  exact ((outs_eq V c t0_7.val t0_7.isLt _).2).trans (corr_total V c)

/-- After the first pipeline's eight points its first output, the one-entry array of squared-difference sums, holds the
    sum of squared differences over the whole pair of argument arrays. -/
theorem mse_acc (c : Dev nD) :
    (dat0 (F := Ideal) V c).arrAt 2 cfg0.N = fun _ => Cert.Spec.mseTotal (V c main_arg0) (V c main_arg1) :=
  (dat0 V c).arrAt_eq_of_cover 2 _ (flushed2 V c) fun i =>
    ⟨t0_7, (flush0_2 t0_7).mpr rfl, by
      rw [mem_out2]
      intro a
      rw [(out_idx t0_7 a).1, Nat.zero_mul, Nat.zero_add]
      exact ⟨Nat.zero_le _, (i a).isLt⟩⟩

/-- And its second output holds the sum over all rows of one minus the row correlation. -/
theorem corr_acc (c : Dev nD) :
    (dat0 (F := Ideal) V c).arrAt 3 cfg0.N = fun _ => Cert.Spec.corrTotal (V c main_arg0) (V c main_arg1) :=
  (dat0 V c).arrAt_eq_of_cover 3 _ (flushed3 V c) fun i =>
    ⟨t0_7, (flush0_3 t0_7).mpr rfl, by
      rw [mem_out3]
      intro a
      rw [(out_idx t0_7 a).2, Nat.zero_mul, Nat.zero_add]
      exact ⟨Nat.zero_le _, (i a).isLt⟩⟩

end Cert.KernelIdeal.NodeSums

end
-- ==== Proof.PairPayload.lean ====
/-
  The arithmetic of the pair kernel's body on one block of 512 by 1024 pairs, read entry by entry over the extended reals.

  Every operation but the two lane sums reads pointwise; the kernel's 0 - |x| is -|x| (0 is the zero word's value and
  subtraction from zero is negation), and |x| is max x (-x). The first lane sum gives each row's sum over its 1024 entries,
  the second the sum of the 512 row sums; the update adds that partial to the one entry that was there.
-/
import proofs.«154292_j34342558499116_1_alg».proof.Proof.Gen.KernelIdeal.Skeleton
import proofs.«154292_j34342558499116_1_alg».proof.Proof.Spec
import Idealize.ShloMosaic.Lib.Pipeline.Value
import Idealize.ShloMosaic.Lib.ValueLayout
import Idealize.ShloMosaic.PureOps.Ideal.Laws

set_option maxRecDepth 16384

noncomputable section

open scoped BigOperators

namespace Cert.KernelIdeal.PairPayload

open Cert.KernelIdeal Cert.KernelIdeal.Gen
open Idealize.ShloMosaic Idealize.ShloMosaic.ValueIdx

/-! ## The two sums along the lanes

The block's partial is taken in two steps: first each of the 512 rows is summed over its 1024 lanes, then the 512 row
sums, laid out as one row, are summed in turn. Each step is a sum over ONE axis, so at an index of what is kept it is the
sum over the coordinates of the axis that is dropped, the kept coordinates unchanged. -/

/-- The sum along the lanes of a 512 x 1024 block, read at row `r`: the sum of that row's 1024 entries. -/
theorem laneSum_block (src : FVec Ideal S512x1024 .f32) (hφ : FKind.Formats .f32)
    (hacc : (0x00000000#32 : BitVec 32) = FKind.add.neutral .f32 hφ) (r : Fin 512) :
    multiReduction .add [1] S512 src 0x00000000#32 reduces_S512x1024_S512 hφ hacc (ix1 r)
      = ∑ k : Fin 1024, src (ix2 r k) := by
  refine (Ideal.multiReduction_add_single src _ reduces_S512x1024_S512 hφ hacc (ix1 r)).trans ?_
  -- the index with lane `k` put back beside row `r` is (r, k), coordinate by coordinate
  refine Finset.sum_congr rfl fun k _ => congrArg src ?_
  funext a
  match a with
  | ⟨0, _⟩ => rfl
  | ⟨1, _⟩ => rfl

/-- The sum along the lanes of one row of 512 entries, read at its one index: the sum of the 512 entries. -/
theorem laneSum_row (src : FVec Ideal S1x512 .f32) (hφ : FKind.Formats .f32)
    (hacc : (0x00000000#32 : BitVec 32) = FKind.add.neutral .f32 hφ) (u : Fin 1) :
    multiReduction .add [1] S1 src 0x00000000#32 reduces_S1x512_S1 hφ hacc (ix1 u)
      = ∑ r : Fin 512, src (ix2 u r) := by
  refine (Ideal.multiReduction_add_single src _ reduces_S1x512_S1 hφ hacc (ix1 u)).trans ?_
  refine Finset.sum_congr rfl fun r _ => congrArg src ?_
  funext a
  match a with
  | ⟨0, _⟩ => rfl
  | ⟨1, _⟩ => rfl

/-! ## One entry

At an entry with logit `a` and label `b` the block's term is max(a, 0) - a*b + log(1 + exp(0 - |a|)). The absolute value of
an extended real is max(a, -a), and 0 - c = -c, so this is the cross-entropy of the specification, which writes
-(max a (-a)) for the exponent. The labels pass through a change of shape to the same shape, which is the identity. -/

/-- The block's entrywise term is the specification's cross-entropy of that entry's logit and label. -/
theorem entry_eq (x z : FVec Ideal S512x1024 .f32) (j : S512x1024.Idx) :
    addf (F := Ideal) (subf (maximumf x (broadcast S512x1024 (FloatOps.ofBits FTy.f32 0x00000000#32)))
          (mulf x (shapeCast S512x1024 z shapeCasts_S512x1024_S512x1024)))
        (log1p (exp (subf (broadcast S512x1024 (FloatOps.ofBits FTy.f32 0x00000000#32)) (absf x)))) j
      = Cert.Spec.bce (x j) (z j) := by
  rw [shapeCast_self]
  show max (x j) (Ideal.ofBits .f32 0x00000000#32) - x j * z j
      + Ideal.log1p (Ideal.exp (Ideal.ofBits .f32 0x00000000#32 - max (x j) (-(x j)))) = _
  rw [Ideal.ofBits_zero_f32, zero_sub]
  rfl

/-! ## The update and the reset -/

/-- The one index of a 1 x 1 array named by the literal position (0, 0). -/
theorem pos00_eq :
    (fun a => (⟨(![0, 0] : Fin 2 → Nat) a, inpos_S1x1_p0_0 a⟩ : Fin (S1x1.size a))) = ix2 (0 : Fin 1) (0 : Fin 1) := by
  funext a
  match a with
  | ⟨0, _⟩ => rfl
  | ⟨1, _⟩ => rfl

/-- The accumulator's update adds to what was there the block's partial: the cross-entropy summed over the block's
    512 x 1024 entries (first operand the logits, second the labels). -/
theorem pay2_eq (x z : Vec Ideal S512x1024 .f32) (acc : Vec Ideal S1x1 .f32) (y : S1x1.Idx) :
    k1_pay2 (F := Ideal) x z acc y
      = acc y + ∑ r : Fin 512, ∑ k : Fin 1024, Cert.Spec.bce (x (ix2 r k)) (z (ix2 r k)) := by
  unfold k1_pay2
  -- the sum of the old value (through a change of shape to the same shape) and the partial spread over the one entry
  refine (addf_apply _ _ y).trans ?_
  refine congrArg₂ (· + ·) (congrFun (shapeCast_self acc shapeCasts_S1x1_S1x1) y) ?_
  refine (broadcast_apply _ y).trans ?_
  -- the partial is read at position (0, 0) of a 1 x 1 array, which holds the one entry of the second lane sum
  unfold extractAt
  refine (congrArg _ pos00_eq).trans ?_
  refine (shapeCast_a_1a_apply _ shapeCasts_S1_S1x1 0 0).trans ?_
  -- the second lane sum: over the 512 row sums, laid out as one row
  refine (laneSum_row _ _ _ 0).trans ?_
  refine Finset.sum_congr rfl fun r _ => ?_
  refine (shapeCast_a_1a_apply _ shapeCasts_S512_S1x512 0 r).trans ?_
  -- the first lane sum: row `r` over its 1024 lanes, each entry the cross-entropy
  refine (laneSum_block _ _ _ r).trans ?_
  exact Finset.sum_congr rfl fun k _ => entry_eq x z (ix2 r k)

/-- The accumulator is reset to zero. -/
theorem pay1_eq (y : S1x1.Idx) : k1_pay1 (F := Ideal) y = 0 := by
  unfold k1_pay1
  refine (broadcast_apply _ y).trans ?_
  exact Ideal.ofBits_zero_f32

end Cert.KernelIdeal.PairPayload

end
-- ==== Proof.PairSums.lean ====
/-
  What the second pipeline leaves in its one-entry output array.

  The pipeline visits 128 points, 16 row blocks by 8 column blocks in row-major order; point t sees rows
  512 (t / 8) … + 511 and columns 1024 (t % 8) … + 1023 of the logits and of the labels. The output is an accumulator of
  one entry: the first point resets it to zero and adds its block's partial, every later point adds its block's partial to
  what the point before left, and only the last point writes the entry back. After the last point it holds 0 plus the
  sum over the points of the blocks' partials, which regroups to the sum over all 8192 x 8192 pairs.
-/
import proofs.«154292_j34342558499116_1_alg».proof.Proof.Gen.KernelIdeal.Frame
import proofs.«154292_j34342558499116_1_alg».proof.Proof.Spec
import proofs.«154292_j34342558499116_1_alg».proof.Proof.PairPayload
import Idealize.ShloMosaic.Lib.Pipeline.Value
import Idealize.ShloMosaic.PureOps.Ideal.Laws
set_option maxRecDepth 16384

noncomputable section

open scoped BigOperators

namespace Cert.KernelIdeal.PairSums

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

/-- The zero offsets of a whole one-entry block. -/
theorem hz : (![0, 0] : Fin 2 → Nat) = fun _ => 0 := funext fun a => by fin_cases a <;> rfl

section Pieces
variable {F : FTy → Type} [FloatOps F]

/-- At a point other than the first the body leaves, in the accumulator holding `xo`, the update of `xo` by the two
    input blocks: its one covering store's value, whose loads read the whole buffers. -/
theorem out_B (c : Dev nD) (i : grid1.Coords) (a2 : Memref sig .tc .vmem S512x1024 .f32) (h2 : a2.IsWhole)
    (a3 : Memref sig .tc .vmem S512x1024 .f32) (h3 : a3.IsWhole) (a4 : Memref sig .tc .vmem S1x1 .f32) (h4 : a4.IsWhole)
    (hc : ¬cond1_0 i) (x0 x1 : Vec F S512x1024 .f32) (xo : Vec F S1x1 .f32) :
    out1_B_2 c i a2 h2 a3 h3 a4 h4 hc x0 x1 xo = k1_pay2 x0 x1 xo := by
  unfold out1_B_2
  rw [View.read_writes_eq_canon _ _ _ (cover1_B_2 c i a2 h2 a3 h3 a4 h4 hc x0 x1 xo)]
  unfold kernelRun1_B
  dsimp only
  sl_unfold_words
  rw [View.canon_unit_zero hz]
  simp only [View.readAt_eq_ld, h2.read_unread, h3.read_unread, h4.read_unread, View.ld_unit_zero (S := S512x1024) hz,
    View.ld_unit_zero (S := S1x1) hz]

/-- At the first point the body stores the zero, reads it back, and leaves the update of the zero by the two input
    blocks. -/
theorem out_A (c : Dev nD) (i : grid1.Coords) (a2 : Memref sig .tc .vmem S512x1024 .f32) (h2 : a2.IsWhole)
    (a3 : Memref sig .tc .vmem S512x1024 .f32) (h3 : a3.IsWhole) (a4 : Memref sig .tc .vmem S1x1 .f32) (h4 : a4.IsWhole)
    (hc : cond1_0 i) (x0 x1 : Vec F S512x1024 .f32) :
    out1_A_2 c i a2 h2 a3 h3 a4 h4 hc x0 x1 = k1_pay2 x0 x1 k1_pay1 := by
  unfold out1_A_2
  rw [View.read_writes_eq_canon _ _ _ (cover1_A_2 c i a2 h2 a3 h3 a4 h4 hc x0 x1)]
  unfold kernelRun1_A
  dsimp only
  sl_unfold_words
  rw [View.canon_cons_unit_zero (S := S1x1) hz, View.readCov_unit_zero (S := S1x1) _ hz]
  simp only [View.readAt_eq_ld, h2.read_unread, h3.read_unread, View.ld_unit_zero (S := S512x1024) hz]

end Pieces

/-! ## The total as a sum over the 16 x 8 blocks -/

/-- The cross-entropy summed over block (g, j) of two 8192 x 8192 arrays: rows 512 g + r, columns 1024 j + k. -/
def blockSum (X Z : Cert.Spec.Pair) (g : Fin 16) (j : Fin 8) : EReal :=
  ∑ r : Fin 512, ∑ k : Fin 1024,
    Cert.Spec.bce
      (X (ix2 (⟨512 * g.val + r.val, by have := g.isLt; have := r.isLt; omega⟩ : Fin 8192)
        (⟨1024 * j.val + k.val, by have := j.isLt; have := k.isLt; omega⟩ : Fin 8192)))
      (Z (ix2 (⟨512 * g.val + r.val, by have := g.isLt; have := r.isLt; omega⟩ : Fin 8192)
        (⟨1024 * j.val + k.val, by have := j.isLt; have := k.isLt; omega⟩ : Fin 8192)))

/-- The sum over all pairs is the sum of the block sums: the rows split into 16 blocks of 512, the columns into 8 blocks
    of 1024, and the sums over the row inside a block and over the column block commute. -/
theorem bceTotal_eq_blocks (X Z : Cert.Spec.Pair) :
    Cert.Spec.bceTotal X Z = ∑ g : Fin 16, ∑ j : Fin 8, blockSum X Z g j := by
  have h1 := Cert.Spec.sum_16x512 (fun i : Fin 8192 => ∑ k : Fin 8192, Cert.Spec.bce (X (ix2 i k)) (Z (ix2 i k)))
  refine h1.trans (Finset.sum_congr rfl fun g _ => ?_)
  refine (Finset.sum_congr rfl fun r _ => Cert.Spec.sum_8x1024 (fun k : Fin 8192 =>
    Cert.Spec.bce (X (ix2 (⟨512 * g.val + r.val, by have := g.isLt; have := r.isLt; omega⟩ : Fin 8192) k))
      (Z (ix2 (⟨512 * g.val + r.val, by have := g.isLt; have := r.isLt; omega⟩ : Fin 8192) k)))).trans ?_
  unfold blockSum
  exact Finset.sum_comm

/-- The partial of grid point `s`, the points taken row-major over the 16 x 8 blocks: the sum over block
    (s / 8, s % 8); zero past the grid. -/
def part (X Z : Cert.Spec.Pair) (s : ℕ) : EReal :=
  if h : s < 128 then blockSum X Z ⟨s / 8, by omega⟩ ⟨s % 8, by omega⟩ else 0

/-- The partials of the 128 points add up to the total. -/
theorem sum_parts (X Z : Cert.Spec.Pair) : ∑ s ∈ Finset.range 128, part X Z s = Cert.Spec.bceTotal X Z := by
  rw [bceTotal_eq_blocks, Finset.sum_range (fun s => part X Z s)]
  refine (Cert.Spec.sum_blocks 16 8 (fun t : Fin 128 => part X Z t.val)).trans ?_
  refine Finset.sum_congr rfl fun g _ => Finset.sum_congr rfl fun j _ => ?_
  have hg := g.isLt
  have hj := j.isLt
  have hlt : 8 * g.val + j.val < 128 := by omega
  show part X Z (8 * g.val + j.val) = blockSum X Z g j
  unfold part
  rw [dif_pos hlt]
  have e1 : (⟨(8 * g.val + j.val) / 8, by omega⟩ : Fin 16) = g := Fin.ext (by dsimp only; omega)
  have e2 : (⟨(8 * g.val + j.val) % 8, by omega⟩ : Fin 8) = j := Fin.ext (by dsimp only; omega)
  rw [e1, e2]

/-! ## The second pipeline's blocks and what its output holds after each point -/

-- The buffer contents the second pipeline is entered from: a parameter, as in the generated frame.
variable (V : (c : Dev nD) → (b : Ref sig .tc) → Buf (Elt Ideal) ((c : Thread nD τ).loc b))

/-- The logits and the labels as the second pipeline finds them. -/
abbrev xarr (c : Dev nD) : Vec Ideal S8192x8192 .f32 := V c main_arg2
abbrev zarr (c : Dev nD) : Vec Ideal S8192x8192 .f32 := V c main_v24
/-- Their blocks at point `t`. -/
abbrev xblk (c : Dev nD) (t : Fin cfg1.N) : Vec Ideal S512x1024 .f32 := iblk1 V c 0 t
abbrev zblk (c : Dev nD) (t : Fin cfg1.N) : Vec Ideal S512x1024 .f32 := iblk1 V c 1 t

/-- Point `t` of the 16 x 8 grid, row-major, reads block (t / 8, t % 8) of both arrays: decided once over the grid. -/
theorem idx_facts : ∀ t : Fin cfg1.N, win1_0.index t 0 = t.val / 8 ∧ win1_0.index t 1 = t.val % 8
      ∧ win1_1.index t 0 = t.val / 8 ∧ win1_1.index t 1 = t.val % 8 :=
  (by decide +kernel : ∀ t : Fin grid1.N, win1_0.index t 0 = t.val / 8 ∧ win1_0.index t 1 = t.val % 8
      ∧ win1_1.index t 0 = t.val / 8 ∧ win1_1.index t 1 = t.val % 8)

/-- Entry (r, k) of the logits' block at point `t` is the array's entry at row 512 (t / 8) + r, column 1024 (t % 8) + k:
    a block's coordinate is the block index times the block size plus the coordinate inside the block. -/
theorem xblk_apply (c : Dev nD) (t : Fin cfg1.N) (r : Fin 512) (k : Fin 1024)
    (h0 : 512 * (t.val / 8) + r.val < 8192) (h1 : 1024 * (t.val % 8) + k.val < 8192) :
    xblk V c t (ix2 r k) = xarr V c (ix2 ⟨512 * (t.val / 8) + r.val, h0⟩ ⟨1024 * (t.val % 8) + k.val, h1⟩) := by
  show V c main_arg2 (((cfg1.win 0).blk t).view.emb (ix2 r k)) = V c main_arg2 _
  refine congrArg (V c main_arg2) ?_
  funext a
  apply Fin.ext
  match a with
  | ⟨0, _⟩ =>
    show win1_0.index t 0 * 512 + 1 * r.val = 512 * (t.val / 8) + r.val
    rw [(idx_facts t).1]; omega
  | ⟨1, _⟩ =>
    show win1_0.index t 1 * 1024 + 1 * k.val = 1024 * (t.val % 8) + k.val
    rw [(idx_facts t).2.1]; omega

/-- The same for the labels' block. -/
theorem zblk_apply (c : Dev nD) (t : Fin cfg1.N) (r : Fin 512) (k : Fin 1024)
    (h0 : 512 * (t.val / 8) + r.val < 8192) (h1 : 1024 * (t.val % 8) + k.val < 8192) :
    zblk V c t (ix2 r k) = zarr V c (ix2 ⟨512 * (t.val / 8) + r.val, h0⟩ ⟨1024 * (t.val % 8) + k.val, h1⟩) := by
  show V c main_v24 (((cfg1.win 1).blk t).view.emb (ix2 r k)) = V c main_v24 _
  refine congrArg (V c main_v24) ?_
  funext a
  apply Fin.ext
  match a with
  | ⟨0, _⟩ =>
    show win1_1.index t 0 * 512 + 1 * r.val = 512 * (t.val / 8) + r.val
    rw [(idx_facts t).2.2.1]; omega
  | ⟨1, _⟩ =>
    show win1_1.index t 1 * 1024 + 1 * k.val = 1024 * (t.val % 8) + k.val
    rw [(idx_facts t).2.2.2]; omega

/-- The cross-entropy summed over the two blocks of point `t` is that point's partial. -/
theorem blk_partial (c : Dev nD) (t : Fin cfg1.N) :
    (∑ r : Fin 512, ∑ k : Fin 1024, Cert.Spec.bce (xblk V c t (ix2 r k)) (zblk V c t (ix2 r k)))
      = part (xarr V c) (zarr V c) t.val := by
  have hN : t.val < 128 := lt_of_lt_of_eq t.isLt (show cfg1.N = 128 from N_1)
  unfold part blockSum
  rw [dif_pos hN]
  refine Finset.sum_congr rfl fun r _ => Finset.sum_congr rfl fun k _ => ?_
  exact congrArg₂ Cert.Spec.bce (xblk_apply V c t r k _ _) (zblk_apply V c t r k _ _)

/-- After point `n` the accumulator holds the partials of the points 0 … n added up: the first point resets it to
    zero and adds its partial, every later one adds its partial to what the point before left. By induction on the
    point. -/
theorem outsAt_eq (c : Dev nD) : ∀ (n : ℕ) (h : n < cfg1.N) (y : S1x1.Idx),
    outsAt1 V c n h y = ∑ s ∈ Finset.range (n + 1), part (xarr V c) (zarr V c) s
  | 0, h, y => by
    rw [outsAt1_A V c ⟨0, h⟩ rfl]
    refine (congrFun (out_A (F := Ideal) c (grid1.coords ⟨0, h⟩) (ms1_0 ⟨0, h⟩) (hs1_0 ⟨0, h⟩) (ms1_1 ⟨0, h⟩)
      (hs1_1 ⟨0, h⟩) (ms1_2 ⟨0, h⟩) (hs1_2 ⟨0, h⟩) ((hcond1_0 ⟨0, h⟩).mpr rfl) (xblk V c ⟨0, h⟩) (zblk V c ⟨0, h⟩)) y).trans ?_
    rw [PairPayload.pay2_eq, PairPayload.pay1_eq, zero_add, Finset.sum_range_one]
    exact blk_partial V c ⟨0, h⟩
  | n + 1, h, y => by
    have hN : cfg1.N = 128 := N_1
    have hB : ¬(⟨n + 1, h⟩ : Fin cfg1.N).val % 128 = 0 := by dsimp only; omega
    rw [outsAt1_B V c ⟨n + 1, h⟩ hB]
    dsimp only
    refine (congrFun (out_B (F := Ideal) c (grid1.coords ⟨n + 1, h⟩) (ms1_0 ⟨n + 1, h⟩) (hs1_0 ⟨n + 1, h⟩)
      (ms1_1 ⟨n + 1, h⟩) (hs1_1 ⟨n + 1, h⟩) (ms1_2 ⟨n + 1, h⟩) (hs1_2 ⟨n + 1, h⟩)
      (fun hh => hB ((hcond1_0 ⟨n + 1, h⟩).mp hh)) (xblk V c ⟨n + 1, h⟩) (zblk V c ⟨n + 1, h⟩)
      (outsAt1 V c n (Nat.lt_of_succ_lt h))) y).trans ?_
    rw [PairPayload.pay2_eq, outsAt_eq c n (Nat.lt_of_succ_lt h) y, Finset.sum_range_succ _ (n + 1)]
    exact congrArg _ (blk_partial V c ⟨n + 1, h⟩)

/-! ## The output array after the run -/

/-- The one write-back, at the last point, writes the total: every entry of the accumulator is then the sum of all
    128 partials, and a block of a constant array is constant. -/
theorem flushed_eq (c : Dev nD) (t : Fin cfg1.N) (hf : (cfg1.win 2).flush t = true) :
    (dat1 V c).flushed 2 t
      = ((cfg1.win 2).blk t).view.read (Elt Ideal) (fun _ => Cert.Spec.bceTotal (xarr V c) (zarr V c)) := by
  have hN : cfg1.N = 128 := N_1
  have h127 : t.val = 127 := by have := (flush1_2 t).mp hf; have := t.isLt; omega
  obtain ⟨n, hn⟩ := t
  dsimp only at h127
  subst h127
  funext y
  show (dat1 V c).after 2 ⟨127, hn⟩ y = Cert.Spec.bceTotal (xarr V c) (zarr V c)
  rw [after1_2]
  exact (outsAt_eq V c 127 hn y).trans (sum_parts _ _)

/-- The last grid point. -/
abbrev tLast : Fin cfg1.N := ⟨127, (by decide : 127 < grid1.N)⟩

/-- After the second pipeline's 128 points its output, a one-entry array, holds the cross-entropy summed over every pair:
    the logits are the pipeline's first operand, the labels its second (the dense adjacency the host built). -/
theorem bce_acc (c : Dev nD) :
    (dat1 (F := Ideal) V c).arrAt 2 cfg1.N = fun _ => Cert.Spec.bceTotal (V c main_arg2) (V c main_v24) :=
  (dat1 V c).arrAt_eq_of_cover 2 (fun _ => Cert.Spec.bceTotal (V c main_arg2) (V c main_v24)) (flushed_eq V c) fun i =>
    ⟨tLast, (flush1_2 tLast).mpr rfl, by
      show i ∈ ((View.whole main_v25).slice (win1_2.rect tLast)).set
      rw [View.set_slice_whole, Rect.mem_set_unit]
      intro a
      have h0 : (i 0 : Nat) < 1 := (i 0).isLt
      have h1 : (i 1 : Nat) < 1 := (i 1).isLt
      match a with
      | ⟨0, _⟩ =>
        show win1_2.index tLast 0 * win1_2.size 0 ≤ (i 0 : Nat)
          ∧ (i 0 : Nat) < win1_2.index tLast 0 * win1_2.size 0 + win1_2.xsize (grid1.coords tLast) 0
        rw [show win1_2.index tLast 0 * win1_2.size 0 = 0 from by decide +kernel,
          show win1_2.xsize (grid1.coords tLast) 0 = 1 from by decide +kernel]; omega
      | ⟨1, _⟩ =>
        show win1_2.index tLast 1 * win1_2.size 1 ≤ (i 1 : Nat)
          ∧ (i 1 : Nat) < win1_2.index tLast 1 * win1_2.size 1 + win1_2.xsize (grid1.coords tLast) 1
        rw [show win1_2.index tLast 1 * win1_2.size 1 = 0 from by decide +kernel,
          show win1_2.xsize (grid1.coords tLast) 1 = 1 from by decide +kernel]; omega⟩

end Cert.KernelIdeal.PairSums

end
-- ==== Proof.KernelValue.lean ====
/-
  What the idealized kernel's program leaves in its four result buffers, as the specification's totals.

  The program is: the node pipeline (two one-entry outputs), a stretch of host operations (the two quotients that turn
  those outputs into the mean squared error and the mean correlation loss, and the dense adjacency scattered from the
  edge list), the pair pipeline (one one-entry output), and a closing stretch (the third quotient and the weighted sum).
  Each boundary's buffer contents are a fold of the one before; here each result buffer is read back through that fold:
  a host stretch applies its operations to what it finds, a pipeline leaves its accumulated output in its array and every
  other buffer as it was.
-/
import proofs.«154292_j34342558499116_1_alg».proof.Proof.Gen.KernelIdeal.Frame
import proofs.«154292_j34342558499116_1_alg».proof.Proof.Gen.ReferenceIdeal.Read
import proofs.«154292_j34342558499116_1_alg».proof.Proof.Spec
import proofs.«154292_j34342558499116_1_alg».proof.Proof.NodeSums
import proofs.«154292_j34342558499116_1_alg».proof.Proof.PairSums
import Idealize.ShloMosaic.Lib.StableHlo.Run
import Idealize.ShloMosaic.Lib.Pipeline.Value

set_option maxRecDepth 16384

noncomputable section

open scoped BigOperators

namespace Cert.KernelIdeal.Results

open Cert.KernelIdeal Cert.KernelIdeal.Gen
open Idealize.ShloMosaic Idealize.ShloMosaic.TcCoe Idealize.ShloMosaic.ValueIdx Idealize.ShloMosaic.StableHlo
open Idealize.SL Idealize.SL.Sem

variable (m : (ℓ : Loc nD τ sig) → Buf (Elt Ideal) ℓ) (ρ : Dev nD → PrngReg)

/-- The dense adjacency as a function of the edge list: the reference's own stage, kept unopened (both programs build it
    by the same host operations). -/
abbrev adj (x3 : (⟨S2x262144, .i32⟩ : BufTy).Contents (Elt Ideal)) : (⟨S8192x8192, .f32⟩ : BufTy).Contents (Elt Ideal) :=
  Cert.ReferenceIdeal.Read.val_main_v51 (F := Ideal) x3

/-! ## The node pipeline's two outputs -/

theorem sums_out (c : Dev nD) :
    W1 m ρ c (Proc.devRef .tc main_v0_0)
      = fun _ => Cert.Spec.mseTotal (m ((c.tc : Thread nD τ).loc main_arg0)) (m ((c.tc : Thread nD τ).loc main_arg1)) :=
  (W1_arr m ρ c 2).trans (Cert.KernelIdeal.NodeSums.mse_acc (V0 m ρ) c)

theorem corrs_out (c : Dev nD) :
    W1 m ρ c (Proc.devRef .tc main_v0_1)
      = fun _ => Cert.Spec.corrTotal (m ((c.tc : Thread nD τ).loc main_arg0)) (m ((c.tc : Thread nD τ).loc main_arg1)) :=
  (W1_arr m ρ c 3).trans (Cert.KernelIdeal.NodeSums.corr_acc (V0 m ρ) c)

/-! ## The host stretch between the pipelines -/

/-- The mean squared error: the accumulated sum divided by the number of entries. -/
theorem mse_mid (c : Dev nD) :
    W2 m ρ c (Proc.devRef .tc main_v2)
      = Host.divf (F := Ideal) (fun _ => Cert.Spec.mseTotal (m ((c.tc : Thread nD τ).loc main_arg0)) (m ((c.tc : Thread nD τ).loc main_arg1)))
          (constant S_ .f32 0x4A000000#32) := by
  show StableHlo.after hostOps1 (W1 m ρ c) (Proc.devRef .tc main_v2) = _
  after_results
  rw [sums_out]
  rfl

/-- The mean correlation loss: the accumulated sum divided by the number of rows. -/
theorem corr_mid (c : Dev nD) :
    W2 m ρ c (Proc.devRef .tc main_v4)
      = Host.divf (F := Ideal) (fun _ => Cert.Spec.corrTotal (m ((c.tc : Thread nD τ).loc main_arg0)) (m ((c.tc : Thread nD τ).loc main_arg1)))
          (constant S_ .f32 0x46000000#32) := by
  show StableHlo.after hostOps1 (W1 m ρ c) (Proc.devRef .tc main_v4) = _
  after_results
  rw [corrs_out]
  rfl

/-- The logits reach the pair pipeline as launched. -/
theorem logits_mid (c : Dev nD) :
    W2 m ρ c (Proc.devRef .tc main_arg2) = m ((c.tc : Thread nD τ).loc main_arg2) := by
  show StableHlo.after hostOps1 (W1 m ρ c) (Proc.devRef .tc main_arg2) = _
  after_results_simp
  exact W1_of_ne m ρ c main_arg2 (by decide)

set_option maxHeartbeats 4000000 in
/-- The labels the pair pipeline is entered with are the dense adjacency of the launched edge list, whatever the contents
    the stretch starts from hold elsewhere. -/
theorem labels_of (Wv : Valuation τ sig (Elt Ideal)) :
    StableHlo.after hostOps1 Wv (Proc.devRef .tc main_v24) = adj (Wv (Proc.devRef .tc main_arg3)) := by
  after_results_simp <;> rfl

theorem labels_mid (c : Dev nD) :
    W2 m ρ c (Proc.devRef .tc main_v24) = adj (m ((c.tc : Thread nD τ).loc main_arg3)) := by
  show StableHlo.after hostOps1 (W1 m ρ c) (Proc.devRef .tc main_v24) = _
  rw [labels_of]
  exact congrArg adj (W1_of_ne m ρ c main_arg3 (by decide))

/-! ## The pair pipeline's output -/

theorem bces_out (c : Dev nD) :
    W3 m ρ c (Proc.devRef .tc main_v25)
      = fun _ => Cert.Spec.bceTotal (m ((c.tc : Thread nD τ).loc main_arg2)) (adj (m ((c.tc : Thread nD τ).loc main_arg3))) := by
  refine (W3_arr m ρ c 2).trans ((Cert.KernelIdeal.PairSums.bce_acc (V2 m ρ) c).trans ?_)
  show (fun _ => Cert.Spec.bceTotal (W2 m ρ c (Proc.devRef .tc main_arg2)) (W2 m ρ c (Proc.devRef .tc main_v24))) = _
  rw [logits_mid, labels_mid]

/-! ## The closing stretch: the four results -/

/-- The mean squared error is not touched after the first stretch. -/
theorem mse_result (c : Dev nD) :
    W4 m ρ c (Proc.devRef .tc main_v2)
      = Host.divf (F := Ideal) (fun _ => Cert.Spec.mseTotal (m ((c.tc : Thread nD τ).loc main_arg0)) (m ((c.tc : Thread nD τ).loc main_arg1)))
          (constant S_ .f32 0x4A000000#32) := by
  show StableHlo.after hostOps2 (W3 m ρ c) (Proc.devRef .tc main_v2) = _
  after_results
  exact (W3_of_ne m ρ c main_v2 (by decide)).trans (mse_mid m ρ c)

/-- Nor is the mean correlation loss. -/
theorem corr_result (c : Dev nD) :
    W4 m ρ c (Proc.devRef .tc main_v4)
      = Host.divf (F := Ideal) (fun _ => Cert.Spec.corrTotal (m ((c.tc : Thread nD τ).loc main_arg0)) (m ((c.tc : Thread nD τ).loc main_arg1)))
          (constant S_ .f32 0x46000000#32) := by
  show StableHlo.after hostOps2 (W3 m ρ c) (Proc.devRef .tc main_v4) = _
  after_results
  exact (W3_of_ne m ρ c main_v4 (by decide)).trans (corr_mid m ρ c)

/-- The interaction loss: the accumulated cross-entropy divided by the number of pairs. -/
theorem inter_result (c : Dev nD) :
    W4 m ρ c (Proc.devRef .tc main_v27)
      = Host.divf (F := Ideal) (fun _ => Cert.Spec.bceTotal (m ((c.tc : Thread nD τ).loc main_arg2)) (adj (m ((c.tc : Thread nD τ).loc main_arg3))))
          (constant S_ .f32 0x4C800000#32) := by
  show StableHlo.after hostOps2 (W3 m ρ c) (Proc.devRef .tc main_v27) = _
  after_results
  rw [bces_out]
  rfl

/-- The total is the three losses weighted and added, whatever they are. -/
theorem total_of_parts (c : Dev nD) :
    W4 m ρ c (Proc.devRef .tc main_v32)
      = addf (F := Ideal) (addf (F := Ideal)
          (mulf (F := Ideal) (constant S_ .f32 0x3F19999A#32) (W4 m ρ c (Proc.devRef .tc main_v2)))
          (mulf (F := Ideal) (constant S_ .f32 0x3E4CCCCD#32) (W4 m ρ c (Proc.devRef .tc main_v4))))
          (mulf (F := Ideal) (constant S_ .f32 0x3E4CCCCD#32) (W4 m ρ c (Proc.devRef .tc main_v27))) := by
  show StableHlo.after hostOps2 (W3 m ρ c) (Proc.devRef .tc main_v32)
    = addf (F := Ideal) (addf (F := Ideal)
        (mulf (F := Ideal) (constant S_ .f32 0x3F19999A#32) (StableHlo.after hostOps2 (W3 m ρ c) (Proc.devRef .tc main_v2)))
        (mulf (F := Ideal) (constant S_ .f32 0x3E4CCCCD#32) (StableHlo.after hostOps2 (W3 m ρ c) (Proc.devRef .tc main_v4))))
        (mulf (F := Ideal) (constant S_ .f32 0x3E4CCCCD#32) (StableHlo.after hostOps2 (W3 m ρ c) (Proc.devRef .tc main_v27)))
  after_results_simp

/-- The total: the three losses weighted and added. -/
theorem total_result (c : Dev nD) :
    W4 m ρ c (Proc.devRef .tc main_v32)
      = addf (F := Ideal) (addf (F := Ideal)
          (mulf (F := Ideal) (constant S_ .f32 0x3F19999A#32)
            (Host.divf (F := Ideal) (fun _ => Cert.Spec.mseTotal (m ((c.tc : Thread nD τ).loc main_arg0)) (m ((c.tc : Thread nD τ).loc main_arg1)))
              (constant S_ .f32 0x4A000000#32)))
          (mulf (F := Ideal) (constant S_ .f32 0x3E4CCCCD#32)
            (Host.divf (F := Ideal) (fun _ => Cert.Spec.corrTotal (m ((c.tc : Thread nD τ).loc main_arg0)) (m ((c.tc : Thread nD τ).loc main_arg1)))
              (constant S_ .f32 0x46000000#32))))
          (mulf (F := Ideal) (constant S_ .f32 0x3E4CCCCD#32)
            (Host.divf (F := Ideal) (fun _ => Cert.Spec.bceTotal (m ((c.tc : Thread nD τ).loc main_arg2)) (adj (m ((c.tc : Thread nD τ).loc main_arg3))))
              (constant S_ .f32 0x4C800000#32))) := by
  rw [total_of_parts, mse_result, corr_result, inter_result]

end Cert.KernelIdeal.Results

end
-- ==== Proof.RefSums.lean ====
/-
  The reference's three sums, read entry by entry over the extended reals.

  A sum over both axes of an array is the zero word's value plus the sum over every index, which is the double sum over
  rows and entries of a row; a sum along the feature axis is the zero word's value plus the sum over a row's 256 features.
  Read through its broadcasts, the reference's per-row term is exactly the specification's row correlation term, and its
  per-pair term the specification's cross-entropy of a logit and a label, the labels left as one unopened array.
-/
import proofs.«154292_j34342558499116_1_alg».proof.Proof.Gen.ReferenceIdeal.Read
import proofs.«154292_j34342558499116_1_alg».proof.Proof.Spec
import Idealize.ShloMosaic.Lib.ValueIdx
import Idealize.ShloMosaic.Lib.ValueIdxRank1
import Idealize.ShloMosaic.Lib.ValueLayout
import Idealize.ShloMosaic.PureOps.Ideal.Laws

set_option maxRecDepth 16384

noncomputable section

open scoped BigOperators

namespace Cert.ReferenceIdeal.Sums

open Cert.ReferenceIdeal Cert.ReferenceIdeal.Gen Cert.ReferenceIdeal.Read
open Idealize.ShloMosaic Idealize.ShloMosaic.ValueIdx

/-! ## Sums over index sets as sums over coordinates -/

/-- A sum over the one-axis index set is the sum over its coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-! ## The squared-difference total -/

/-- The reference's sum of squared differences over both axes is the specification's total. -/
theorem ref_mse (x0 x1 : (⟨S8192x256, .f32⟩ : BufTy).Contents (Elt Ideal)) :
    val_main_v2 (F := Ideal) x0 x1 = fun _ => Cert.Spec.mseTotal x0 x1 := by
  funext i
  rw [val_main_v2_apply, val_main_cst_apply, Ideal.ofBits_def, Ideal.ofBits_zero_f32, zero_add, sum_idx2]
  unfold Cert.Spec.mseTotal Cert.Spec.rowSq Cert.Spec.row
  refine Finset.sum_congr rfl fun r _ => Finset.sum_congr rfl fun k _ => ?_
  rw [val_main_v1_apply, val_main_v0_apply, Ideal.mulf_def, Ideal.subf_def]

/-! ## The correlation total

Row r's mean is read through two broadcasts: entry (r, k) of the broadcast mean is the quotient, by 256, of the sum of
row r. The three row sums of products of deviations, the two roots, the small constant and the quotient follow the
specification term by term. -/

/-- The row-sum index of row r reached through the two broadcasts from entry (r, k) is (r, k'). -/
theorem idx_mean0 (r : Fin 8192) (k k' : Fin 256) :
    idx_main_v4 (idx_main_v5 (idx_main_v8 (ix2 r k))) k' = ix2 r k' :=
  funext fun a => Fin.ext (by match a with | ⟨0, _⟩ => rfl | ⟨1, _⟩ => rfl)

/-- The same for the second operand's mean. -/
theorem idx_mean1 (r : Fin 8192) (k k' : Fin 256) :
    idx_main_v10 (idx_main_v11 (idx_main_v14 (ix2 r k))) k' = ix2 r k' :=
  funext fun a => Fin.ext (by match a with | ⟨0, _⟩ => rfl | ⟨1, _⟩ => rfl)

/-- The indices the row sum of products of deviations reads at row r. -/
theorem idx_cov (r : Fin 8192) (k : Fin 256) : idx_main_v17 (ix1 r) k = ix2 r k :=
  funext fun a => Fin.ext (by match a with | ⟨0, _⟩ => rfl | ⟨1, _⟩ => rfl)
/-- The indices the first operand's row sum of squared deviations reads at row r. -/
theorem idx_var0 (r : Fin 8192) (k : Fin 256) : idx_main_v19 (ix1 r) k = ix2 r k :=
  funext fun a => Fin.ext (by match a with | ⟨0, _⟩ => rfl | ⟨1, _⟩ => rfl)
/-- The indices the second operand's row sum of squared deviations reads at row r. -/
theorem idx_var1 (r : Fin 8192) (k : Fin 256) : idx_main_v22 (ix1 r) k = ix2 r k :=
  funext fun a => Fin.ext (by match a with | ⟨0, _⟩ => rfl | ⟨1, _⟩ => rfl)

/-- The broadcast mean of the first operand at (r, k) is row r's mean. -/
theorem mean0 (x0 : (⟨S8192x256, .f32⟩ : BufTy).Contents (Elt Ideal)) (r : Fin 8192) (k : Fin 256) :
    val_main_v8 (F := Ideal) x0 (ix2 r k) = Cert.Spec.rowMean (Cert.Spec.row x0 r) := by
  rw [val_main_v8_apply, val_main_v7_apply, val_main_v5_apply, val_main_v4_apply, val_main_v6_apply,
    val_main_cst_1_apply, val_main_cst_2_apply, Ideal.hostDivf_def, Ideal.ofBits_def, Ideal.ofBits_def,
    Ideal.ofBits_zero_f32, zero_add]
  unfold Cert.Spec.rowMean Cert.Spec.row
  refine congrArg (fun s => Ideal.div s _) (Finset.sum_congr rfl fun k' _ => ?_)
  rw [idx_mean0]

/-- The broadcast mean of the second operand at (r, k) is row r's mean. -/
theorem mean1 (x1 : (⟨S8192x256, .f32⟩ : BufTy).Contents (Elt Ideal)) (r : Fin 8192) (k : Fin 256) :
    val_main_v14 (F := Ideal) x1 (ix2 r k) = Cert.Spec.rowMean (Cert.Spec.row x1 r) := by
  rw [val_main_v14_apply, val_main_v13_apply, val_main_v11_apply, val_main_v10_apply, val_main_v12_apply,
    val_main_cst_3_apply, val_main_cst_4_apply, Ideal.hostDivf_def, Ideal.ofBits_def, Ideal.ofBits_def,
    Ideal.ofBits_zero_f32, zero_add]
  unfold Cert.Spec.rowMean Cert.Spec.row
  refine congrArg (fun s => Ideal.div s _) (Finset.sum_congr rfl fun k' _ => ?_)
  rw [idx_mean1]

/-- The first operand's deviation from its row mean. -/
theorem dev0 (x0 : (⟨S8192x256, .f32⟩ : BufTy).Contents (Elt Ideal)) (r : Fin 8192) (k : Fin 256) :
    val_main_v9 (F := Ideal) x0 (ix2 r k)
      = Cert.Spec.row x0 r k - Cert.Spec.rowMean (Cert.Spec.row x0 r) := by
  rw [val_main_v9_apply, mean0, Ideal.subf_def]
  rfl

/-- The second operand's deviation from its row mean. -/
theorem dev1 (x1 : (⟨S8192x256, .f32⟩ : BufTy).Contents (Elt Ideal)) (r : Fin 8192) (k : Fin 256) :
    val_main_v15 (F := Ideal) x1 (ix2 r k)
      = Cert.Spec.row x1 r k - Cert.Spec.rowMean (Cert.Spec.row x1 r) := by
  rw [val_main_v15_apply, mean1, Ideal.subf_def]
  rfl

/-- Row r's sum of products of the two deviations. -/
theorem cov_row (x0 x1 : (⟨S8192x256, .f32⟩ : BufTy).Contents (Elt Ideal)) (r : Fin 8192) :
    val_main_v17 (F := Ideal) x0 x1 (ix1 r)
      = ∑ k : Fin 256, (Cert.Spec.row x0 r k - Cert.Spec.rowMean (Cert.Spec.row x0 r))
          * (Cert.Spec.row x1 r k - Cert.Spec.rowMean (Cert.Spec.row x1 r)) := by
  rw [val_main_v17_apply, val_main_cst_5_apply, Ideal.ofBits_def, Ideal.ofBits_zero_f32, zero_add]
  refine Finset.sum_congr rfl fun k _ => ?_
  rw [idx_cov, val_main_v16_apply, dev0, dev1, Ideal.mulf_def]

/-- Row r's sum of squared deviations of the first operand. -/
theorem var0_row (x0 : (⟨S8192x256, .f32⟩ : BufTy).Contents (Elt Ideal)) (r : Fin 8192) :
    val_main_v19 (F := Ideal) x0 (ix1 r)
      = ∑ k : Fin 256, (Cert.Spec.row x0 r k - Cert.Spec.rowMean (Cert.Spec.row x0 r))
          * (Cert.Spec.row x0 r k - Cert.Spec.rowMean (Cert.Spec.row x0 r)) := by
  rw [val_main_v19_apply, val_main_cst_6_apply, Ideal.ofBits_def, Ideal.ofBits_zero_f32, zero_add]
  refine Finset.sum_congr rfl fun k _ => ?_
  rw [idx_var0, val_main_v18_apply, dev0, Ideal.mulf_def]

/-- Row r's sum of squared deviations of the second operand. -/
theorem var1_row (x1 : (⟨S8192x256, .f32⟩ : BufTy).Contents (Elt Ideal)) (r : Fin 8192) :
    val_main_v22 (F := Ideal) x1 (ix1 r)
      = ∑ k : Fin 256, (Cert.Spec.row x1 r k - Cert.Spec.rowMean (Cert.Spec.row x1 r))
          * (Cert.Spec.row x1 r k - Cert.Spec.rowMean (Cert.Spec.row x1 r)) := by
  rw [val_main_v22_apply, val_main_cst_7_apply, Ideal.ofBits_def, Ideal.ofBits_zero_f32, zero_add]
  refine Finset.sum_congr rfl fun k _ => ?_
  rw [idx_var1, val_main_v21_apply, dev1, Ideal.mulf_def]

/-- Row r's term of the reference: one minus the quotient of the sum of products by the product of the two roots plus
    the small constant. -/
theorem corr_row (x0 x1 : (⟨S8192x256, .f32⟩ : BufTy).Contents (Elt Ideal)) (r : Fin 8192) :
    val_main_v29 (F := Ideal) x0 x1 (ix1 r) = Cert.Spec.rowCorr (Cert.Spec.row x0 r) (Cert.Spec.row x1 r) := by
  rw [val_main_v29_apply, val_main_v28_apply, val_main_cst_9_apply, val_main_v27_apply, val_main_v26_apply,
    val_main_v24_apply, val_main_v20_apply, val_main_v23_apply, val_main_v25_apply, val_main_cst_8_apply,
    cov_row, var0_row, var1_row]
  rfl

/-- The reference's sum over the rows of one minus the row correlation is the specification's total. -/
theorem ref_corr (x0 x1 : (⟨S8192x256, .f32⟩ : BufTy).Contents (Elt Ideal)) :
    val_main_v30 (F := Ideal) x0 x1 = fun _ => Cert.Spec.corrTotal x0 x1 := by
  funext i
  rw [val_main_v30_apply, val_main_cst_10_apply, Ideal.ofBits_def, Ideal.ofBits_zero_f32, zero_add, sum_idx1]
  unfold Cert.Spec.corrTotal
  exact Finset.sum_congr rfl fun r _ => corr_row x0 x1 r

/-! ## The cross-entropy total

The labels enter only through the product with the logit, so they stay one unopened array. -/

/-- One entry of the reference's cross-entropy array, for any label array z. -/
theorem bce_entry (x2 z : (⟨S8192x8192, .f32⟩ : BufTy).Contents (Elt Ideal)) (j : S8192x8192.Idx) :
    max (x2 j : EReal) (val_main_v52 (F := Ideal) j) - (x2 j : EReal) * (z j : EReal) + (val_main_v59 (F := Ideal) x2 j : EReal)
      = Cert.Spec.bce (x2 j) (z j) := by
  rw [val_main_v52_apply, val_main_cst_17_apply, val_main_v59_apply, val_main_v58_apply, val_main_v57_apply,
    val_main_v56_apply, Ideal.ofBits_def, Ideal.ofBits_zero_f32]
  rfl

/-- The reference's sum of the cross-entropy over both axes is the specification's total, the labels being the dense
    adjacency the reference scatters (kept as one unopened function of the edge list). -/
theorem ref_bce (x2 : (⟨S8192x8192, .f32⟩ : BufTy).Contents (Elt Ideal)) (x3 : (⟨S2x262144, .i32⟩ : BufTy).Contents (Elt Ideal)) :
    val_main_v61 (F := Ideal) x2 x3 = fun _ => Cert.Spec.bceTotal x2 (val_main_v51 (F := Ideal) x3) := by
  funext i
  rw [val_main_v61_apply, val_main_cst_18_apply, Ideal.ofBits_def, Ideal.ofBits_zero_f32, zero_add, sum_idx2]
  unfold Cert.Spec.bceTotal
  refine Finset.sum_congr rfl fun r _ => Finset.sum_congr rfl fun k _ => ?_
  rw [val_main_v60_apply, val_main_v55_apply, val_main_v53_apply, val_main_v54_apply, Ideal.addf_def, Ideal.subf_def,
    Ideal.maximumf_def, Ideal.mulf_def]
  exact bce_entry x2 (val_main_v51 (F := Ideal) x3) (ix2 r k)

end Cert.ReferenceIdeal.Sums

end
-- ==== Proof.lean ====
/-
  The certificate: a node-regression loss with an interaction term, computed by two pipelined kernels and host glue, equals
  its plain reference over the extended reals.

  Both programs return (total, mse, corr, interaction) with
    mse         = (sum over all 8192 x 256 entries of (pred - target)^2) / 2097152,
    corr        = (sum over the 8192 rows of 1 - Pearson correlation of the row of pred and the row of target) / 8192,
    interaction = (sum over all 8192 x 8192 pairs of max(x,0) - x z + log(1 + exp(-|x|))) / 67108864,
    total       = 0.6 mse + 0.2 corr + 0.2 interaction   (the same three constant words on both sides),
  z being the dense adjacency both programs scatter from the edge list by the same host operations. The reference takes
  each sum whole. The kernel takes the first two in 8 blocks of 1024 rows, adding each block's partial into a one-entry
  accumulator that it resets at the first block, and the third in 16 x 8 blocks of 512 x 1024 pairs in the same way. A sum of
  extended reals may be regrouped and reordered freely (addition there is commutative and associative, and 0 is neutral),
  so the blocked sums are the whole ones and no finiteness of the inputs is used; every other operation is the same on
  both sides, the kernel's 0 - |x| being the reference's -|x|.

  The pieces: Spec (the three totals as plain sums, and the blocked-sum law); NodePayload / PairPayload (a kernel body's
  arithmetic on one block); NodeSums / PairSums (the accumulation over the grid and the write-back); KernelRun (the
  program's run with its results named) and KernelValue (the host operations around the pipelines); RefSums (the reference's
  three sums). Here: the reference's four results in the same form, the three frames, and the equality.
-/
import proofs.«154292_j34342558499116_1_alg».proof.Defs
import proofs.«154292_j34342558499116_1_alg».proof.Proof.Gen.Kernel
import proofs.«154292_j34342558499116_1_alg».proof.Proof.Gen.Kernel.Skeleton
import proofs.«154292_j34342558499116_1_alg».proof.Proof.Gen.Kernel.Launch
import proofs.«154292_j34342558499116_1_alg».proof.Proof.Gen.Kernel.Points
import proofs.«154292_j34342558499116_1_alg».proof.Proof.Gen.Kernel.Frame
import proofs.«154292_j34342558499116_1_alg».proof.Proof.Gen.KernelIdeal
import proofs.«154292_j34342558499116_1_alg».proof.Proof.Gen.KernelIdeal.Skeleton
import proofs.«154292_j34342558499116_1_alg».proof.Proof.Gen.KernelIdeal.Launch
import proofs.«154292_j34342558499116_1_alg».proof.Proof.Gen.KernelIdeal.Points
import proofs.«154292_j34342558499116_1_alg».proof.Proof.Gen.KernelIdeal.Frame
import proofs.«154292_j34342558499116_1_alg».proof.Proof.Gen.ReferenceIdeal
import proofs.«154292_j34342558499116_1_alg».proof.Proof.Gen.ReferenceIdeal.Run
import proofs.«154292_j34342558499116_1_alg».proof.Proof.Gen.ReferenceIdeal.Read
import proofs.«154292_j34342558499116_1_alg».proof.Proof.Gen.Pre_finite_inputs
import proofs.«154292_j34342558499116_1_alg».proof.Proof.Spec
import proofs.«154292_j34342558499116_1_alg».proof.Proof.KernelRun
import proofs.«154292_j34342558499116_1_alg».proof.Proof.KernelValue
import proofs.«154292_j34342558499116_1_alg».proof.Proof.RefSums
import Idealize.ShloMosaic.Adequacy
import Idealize.ShloMosaic.Init

set_option maxRecDepth 16384

noncomputable section

/-! ## The reference's four results, in the specification's terms -/

namespace Cert.ReferenceIdeal.Results

open Cert.ReferenceIdeal Cert.ReferenceIdeal.Gen Cert.ReferenceIdeal.Read Cert.ReferenceIdeal.Sums
open Idealize.ShloMosaic Idealize.ShloMosaic.TcCoe Idealize.SL.Sem

/-- The mean squared error. -/
theorem mse_eq (x0 x1 : (⟨S8192x256, .f32⟩ : BufTy).Contents (Elt Ideal)) :
    val_main_v3 (F := Ideal) x0 x1
      = Host.divf (F := Ideal) (fun _ => Cert.Spec.mseTotal x0 x1) (constant S_ .f32 0x4A000000#32) := by
  unfold val_main_v3
  rw [ref_mse]
  rfl

/-- The mean correlation loss. -/
theorem corr_eq (x0 x1 : (⟨S8192x256, .f32⟩ : BufTy).Contents (Elt Ideal)) :
    val_main_v31 (F := Ideal) x0 x1
      = Host.divf (F := Ideal) (fun _ => Cert.Spec.corrTotal x0 x1) (constant S_ .f32 0x46000000#32) := by
  unfold val_main_v31
  rw [ref_corr]
  rfl

/-- The interaction loss. -/
theorem inter_eq (x2 : (⟨S8192x8192, .f32⟩ : BufTy).Contents (Elt Ideal)) (x3 : (⟨S2x262144, .i32⟩ : BufTy).Contents (Elt Ideal)) :
    val_main_v62 (F := Ideal) x2 x3
      = Host.divf (F := Ideal) (fun _ => Cert.Spec.bceTotal x2 (val_main_v51 (F := Ideal) x3)) (constant S_ .f32 0x4C800000#32) := by
  unfold val_main_v62
  rw [ref_bce]
  rfl

/-- The total. -/
theorem total_eq (x0 x1 : (⟨S8192x256, .f32⟩ : BufTy).Contents (Elt Ideal)) (x2 : (⟨S8192x8192, .f32⟩ : BufTy).Contents (Elt Ideal))
    (x3 : (⟨S2x262144, .i32⟩ : BufTy).Contents (Elt Ideal)) :
    val_main_v67 (F := Ideal) x0 x1 x2 x3
      = addf (F := Ideal) (addf (F := Ideal)
          (mulf (F := Ideal) (constant S_ .f32 0x3F19999A#32) (Host.divf (F := Ideal) (fun _ => Cert.Spec.mseTotal x0 x1) (constant S_ .f32 0x4A000000#32)))
          (mulf (F := Ideal) (constant S_ .f32 0x3E4CCCCD#32) (Host.divf (F := Ideal) (fun _ => Cert.Spec.corrTotal x0 x1) (constant S_ .f32 0x46000000#32))))
          (mulf (F := Ideal) (constant S_ .f32 0x3E4CCCCD#32)
            (Host.divf (F := Ideal) (fun _ => Cert.Spec.bceTotal x2 (val_main_v51 (F := Ideal) x3)) (constant S_ .f32 0x4C800000#32))) := by
  unfold val_main_v67 val_main_v65 val_main_v66 val_main_v63 val_main_v64
  rw [mse_eq, corr_eq, inter_eq]
  rfl

end Cert.ReferenceIdeal.Results

/-! ## The claims -/

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the results dropped. -/
theorem frame_ri : Cert.frame_ReferenceIdeal := fun m ρ _ =>
  (θ_run Cert.ReferenceIdeal.defs _ _).mono (fun _ h c => (h c).2.2.2.2) (Cert.ReferenceIdeal.Value.run (F := Ideal) m ρ)

/-- Both programs end with the same four numbers. -/
theorem algebraic : Cert.algebraic_KernelIdeal_ReferenceIdeal := by
  intro m ρ m' ρ' _ hagree
  refine ⟨fun c => Cert.KernelIdeal.Gen.W4 m ρ c (Proc.devRef .tc Cert.KernelIdeal.main_v32),
    fun c => Cert.KernelIdeal.Gen.W4 m ρ c (Proc.devRef .tc Cert.KernelIdeal.main_v2),
    fun c => Cert.KernelIdeal.Gen.W4 m ρ c (Proc.devRef .tc Cert.KernelIdeal.main_v4),
    fun c => Cert.KernelIdeal.Gen.W4 m ρ c (Proc.devRef .tc Cert.KernelIdeal.main_v27),
    Cert.KernelIdeal.Named.run_named (F := Ideal) m ρ, ?_⟩
  refine (θ_run Cert.ReferenceIdeal.defs _ _).mono (fun _ h c => ?_) (Cert.ReferenceIdeal.Value.run (F := Ideal) m' ρ')
  obtain ⟨h0, h1, h2, h3, hargs⟩ := h c
  obtain ⟨e0, e1, e2, e3⟩ := hagree c
  refine ⟨h0.trans ?_, h1.trans ?_, h2.trans ?_, h3.trans ?_, hargs⟩
  · rw [Cert.ReferenceIdeal.Read.val_main_v67_eq, Cert.ReferenceIdeal.Results.total_eq, e0, e1, e2, e3]
    exact (Cert.KernelIdeal.Results.total_result m ρ c).symm
  · rw [Cert.ReferenceIdeal.Read.val_main_v3_eq, Cert.ReferenceIdeal.Results.mse_eq, e0, e1]
    exact (Cert.KernelIdeal.Results.mse_result m ρ c).symm
  · rw [Cert.ReferenceIdeal.Read.val_main_v31_eq, Cert.ReferenceIdeal.Results.corr_eq, e0, e1]
    exact (Cert.KernelIdeal.Results.corr_result m ρ c).symm
  · rw [Cert.ReferenceIdeal.Read.val_main_v62_eq, Cert.ReferenceIdeal.Results.inter_eq, e2, e3]
    exact (Cert.KernelIdeal.Results.inter_result m ρ c).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
